-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S2048x2048 : Shape := ⟨2, ![2048, 2048]⟩
abbrev S2048 : Shape := ⟨1, ![2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048x2048 .f32) (main_arg15 : FVec F S2048x2048 .f32) (main_arg16 : FVec F S2048x2048 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048x2048 .f32 := Host.absf main_arg16
  let main_cst_30 : FVec F S_ .f32 := constant S_ .f32 0x7F800000#32
  let main_v80 : FVec F S2048x2048 .f32 := broadcastInDim S2048x2048 ![] bcast_S_S2048x2048 main_cst_30
  let main_v81 : IVec S2048x2048 1 := cmpf .olt main_v79 main_v80
  let main_c_31 : IVec S_ 1 := constantI S_ 1 1#1
  let main_v82 : IVec S_ 1 := (fun x v => Host.reduce IntOp.andi x v reducesTo_S2048x2048_S_d0_1 h_S_) main_v81 main_c_31
  let main_v83 : IVec S_ 1 := andi main_v78 main_v82
  main_v83

def fn_part3 {F : FTy → Type} [FloatOps F] (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_arg15 main_arg16 main_v63 main_v67

def fn_part2 {F : FTy → Type} [FloatOps F] (main_arg7 : FVec F S2048x2048 .f32) (main_arg8 : FVec F S2048x2048 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_v48 main_v49 main_v50

def fn_part1 {F : FTy → Type} [FloatOps F] (main_arg4 : FVec F S256x2048 .f32) (main_arg5 : FVec F S2048x2048 .f32) (main_arg6 : FVec F S2048x2048 .f32) (main_arg7 : FVec F S2048x2048 .f32) (main_arg8 : FVec F S2048x2048 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S256x2048 .f32) (main_arg1 : FVec F S256x2048 .f32) (main_arg2 : FVec F S256x2048 .f32) (main_arg3 : FVec F S256x2048 .f32) (main_arg4 : FVec F S256x2048 .f32) (main_arg5 : FVec F S2048x2048 .f32) (main_arg6 : FVec F S2048x2048 .f32) (main_arg7 : FVec F S2048x2048 .f32) (main_arg8 : FVec F S2048x2048 .f32) (main_arg9 : FVec F S2048 .f32) (main_arg10 : FVec F S2048 .f32) (main_arg11 : FVec F S2048 .f32) (main_arg12 : FVec F S2048 .f32) (main_arg13 : FVec F S2048x2048 .f32) (main_arg14 : FVec F S2048x2048 .f32) (main_arg15 : FVec F S2048x2048 .f32) (main_arg16 : FVec F S2048x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S256x2048 : Shape := ⟨2, ![256, 2048]⟩
abbrev S2048x2048 : Shape := ⟨2, ![2048, 2048]⟩
abbrev S2048 : Shape := ⟨1, ![2048]⟩
abbrev S1x2048 : Shape := ⟨2, ![1, 2048]⟩
abbrev S256x128 : Shape := ⟨2, ![256, 128]⟩
abbrev S2048x128 : Shape := ⟨2, ![2048, 128]⟩
abbrev S1x128 : Shape := ⟨2, ![1, 128]⟩
abbrev S1x256x2048 : Shape := ⟨3, ![1, 256, 2048]⟩
abbrev S4x256x2048 : Shape := ⟨3, ![4, 256, 2048]⟩

abbrev nBuf : Space → Nat
  | .hbm => 30
  | .vmem => 40
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S1x256x2048, .f32⟩
  | .hbm, ⟨26, _⟩ => ⟨S1x256x2048, .f32⟩
  | .hbm, ⟨27, _⟩ => ⟨S1x256x2048, .f32⟩
  | .hbm, ⟨28, _⟩ => ⟨S1x256x2048, .f32⟩
  | .hbm, ⟨29, _⟩ => ⟨S4x256x2048, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | .local _ .vmem, ⟨36, _⟩ => ⟨S256x128, .f32⟩
  | .local _ .vmem, ⟨37, _⟩ => ⟨S256x128, .f32⟩
  | .local _ .vmem, ⟨38, _⟩ => ⟨S256x128, .f32⟩
  | .local _ .vmem, ⟨39, _⟩ => ⟨S256x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4_0 : Ref sig .tc := ⟨.hbm, 21, rfl⟩
abbrev main_v4_1 : Ref sig .tc := ⟨.hbm, 22, rfl⟩
abbrev main_v4_2 : Ref sig .tc := ⟨.hbm, 23, rfl⟩
abbrev main_v4_3 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37
abbrev cc0_sem20_0 : DmaSem sig := 38
abbrev cc0_sem20_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2048x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2048x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2048x128_S2048x128_0_0 : ∀ a, (![0, 0] : Fin 2 → Nat) a + S2048x128.size a ≤ S2048x128.size a
  h_S2048x128 : 0 < S2048x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  bcast_S256x2048_S1x256x2048_1_2 : S256x2048.BroadcastsInDim S1x256x2048 (![1, 2] : Fin 2 → Fin S1x256x2048.rank)
  concatenates_S1x256x2048_S1x256x2048_S1x256x2048_S1x256x2048_S4x256x2048_d0 : Shape.Concatenates [S1x256x2048, S1x256x2048, S1x256x2048, S1x256x2048] S4x256x2048 0
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x2048.size a
  hwx0_1 : ∀ i : grid0.Coords, EltTy.bits .f32 = 32 ∨ (Rect.block (s := S256x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x2048.size a
  hwx0_2 : ∀ i : grid0.Coords, EltTy.bits .f32 = 32 ∨ (Rect.block (s := S256x2048) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x2048.size a
  hwx0_3 : ∀ i : grid0.Coords, EltTy.bits .f32 = 32 ∨ (Rect.block (s := S256x2048) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x2048.size a
  hwx0_4 : ∀ i : grid0.Coords, EltTy.bits .f32 = 32 ∨ (Rect.block (s := S256x2048) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S2048x2048.size a
  hwx0_5 : ∀ i : grid0.Coords, EltTy.bits .f32 = 32 ∨ (Rect.block (s := S2048x2048) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S2048x2048.size a
  hwx0_6 : ∀ i : grid0.Coords, EltTy.bits .f32 = 32 ∨ (Rect.block (s := S2048x2048) S2048x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S2048x2048.size a
  hwx0_7 : ∀ i : grid0.Coords, EltTy.bits .f32 = 32 ∨ (Rect.block (s := S2048x2048) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S2048x2048.size a
  hwx0_8 : ∀ i : grid0.Coords, EltTy.bits .f32 = 32 ∨ (Rect.block (s := S2048x2048) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x2048.size a
  hwx0_9 : ∀ i : grid0.Coords, EltTy.bits .f32 = 32 ∨ (Rect.block (s := S1x2048) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x2048.size a
  hwx0_10 : ∀ i : grid0.Coords, EltTy.bits .f32 = 32 ∨ (Rect.block (s := S1x2048) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x2048.size a
  hwx0_11 : ∀ i : grid0.Coords, EltTy.bits .f32 = 32 ∨ (Rect.block (s := S1x2048) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x2048.size a
  hwx0_12 : ∀ i : grid0.Coords, EltTy.bits .f32 = 32 ∨ (Rect.block (s := S1x2048) S1x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x128.size a ≤ S2048x2048.size a
  hwx0_13 : ∀ i : grid0.Coords, EltTy.bits .f32 = 32 ∨ (Rect.block (s := S2048x2048) S2048x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x128.size a ≤ S2048x2048.size a
  hwx0_14 : ∀ i : grid0.Coords, EltTy.bits .f32 = 32 ∨ (Rect.block (s := S2048x2048) S2048x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x128.size a ≤ S2048x2048.size a
  hwx0_15 : ∀ i : grid0.Coords, EltTy.bits .f32 = 32 ∨ (Rect.block (s := S2048x2048) S2048x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x128.size a ≤ S2048x2048.size a
  hwx0_16 : ∀ i : grid0.Coords, EltTy.bits .f32 = 32 ∨ (Rect.block (s := S2048x2048) S2048x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x128.size a ≤ S256x2048.size a
  hwx0_17 : ∀ i : grid0.Coords, EltTy.bits .f32 = 32 ∨ (Rect.block (s := S256x2048) S256x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x128.size a ≤ S256x2048.size a
  hwx0_18 : ∀ i : grid0.Coords, EltTy.bits .f32 = 32 ∨ (Rect.block (s := S256x2048) S256x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x2048.size a
  hwx0_19 : ∀ i : grid0.Coords, EltTy.bits .f32 = 32 ∨ (Rect.block (s := S256x2048) S256x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S256x128.size a ≤ S256x2048.size a
  hwx0_20 : ∀ i : grid0.Coords, EltTy.bits .f32 = 32 ∨ (Rect.block (s := S256x2048) S256x128.size (cc0_transform_20 i) (hinb0_20 i)).WholeWords (EltTy.packing .f32)

variable [Facts₀]

def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S2048x128.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S2048x128.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S2048x128.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S2048x128.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v4_0) S256x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v4_1) S256x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v4_2) S256x128.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v4_3) S256x128.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S256x2048 : Shape := ⟨2, ![256, 2048]⟩
abbrev S2048x2048 : Shape := ⟨2, ![2048, 2048]⟩
abbrev S2048 : Shape := ⟨1, ![2048]⟩
abbrev S2048x8192 : Shape := ⟨2, ![2048, 8192]⟩
abbrev S8192 : Shape := ⟨1, ![8192]⟩
abbrev S256x8192 : Shape := ⟨2, ![256, 8192]⟩
abbrev S1x8192 : Shape := ⟨2, ![1, 8192]⟩
abbrev S_ : Shape := ⟨0, ![]⟩
abbrev S1x256x2048 : Shape := ⟨3, ![1, 256, 2048]⟩
abbrev S4x256x2048 : Shape := ⟨3, ![4, 256, 2048]⟩

abbrev nBuf : Space → Nat
  | .hbm => 61
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x8192, .f32⟩
  | .hbm, ⟨18, _⟩ => ⟨S2048x8192, .f32⟩
  | .hbm, ⟨19, _⟩ => ⟨S8192, .f32⟩
  | .hbm, ⟨20, _⟩ => ⟨S256x8192, .f32⟩
  | .hbm, ⟨21, _⟩ => ⟨S256x8192, .f32⟩
  | .hbm, ⟨22, _⟩ => ⟨S256x8192, .f32⟩
  | .hbm, ⟨23, _⟩ => ⟨S1x8192, .f32⟩
  | .hbm, ⟨24, _⟩ => ⟨S256x8192, .f32⟩
  | .hbm, ⟨25, _⟩ => ⟨S256x8192, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S256x2048, .f32⟩
  | .hbm, ⟨50, _⟩ => ⟨S256x2048, .f32⟩
  | .hbm, ⟨51, _⟩ => ⟨S_, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S256x2048, .f32⟩
  | .hbm, ⟨56, _⟩ => ⟨S1x256x2048, .f32⟩
  | .hbm, ⟨57, _⟩ => ⟨S1x256x2048, .f32⟩
  | .hbm, ⟨58, _⟩ => ⟨S1x256x2048, .f32⟩
  | .hbm, ⟨59, _⟩ => ⟨S1x256x2048, .f32⟩
  | .hbm, ⟨60, _⟩ => ⟨S4x256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  concatenates_S2048x2048_S2048x2048_S2048x2048_S2048x2048_S2048x8192_d1 : Shape.Concatenates [S2048x2048, S2048x2048, S2048x2048, S2048x2048] S2048x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  slices_S256x8192_S256x2048_0_0 : S256x8192.Slices ![0, 0] S256x2048
  slices_S256x8192_S256x2048_0_2048 : S256x8192.Slices ![0, 2048] S256x2048
  slices_S256x8192_S256x2048_0_4096 : S256x8192.Slices ![0, 4096] S256x2048
  slices_S256x8192_S256x2048_0_6144 : S256x8192.Slices ![0, 6144] S256x2048
  bcast_S_S256x2048 : S_.BroadcastsInDim S256x2048 (![] : Fin 0 → Fin S256x2048.rank)
  bcast_S256x2048_S1x256x2048_1_2 : S256x2048.BroadcastsInDim S1x256x2048 (![1, 2] : Fin 2 → Fin S1x256x2048.rank)
  concatenates_S1x256x2048_S1x256x2048_S1x256x2048_S1x256x2048_S4x256x2048_d0 : Shape.Concatenates [S1x256x2048, S1x256x2048, S1x256x2048, S1x256x2048] S4x256x2048 0
  dot_S256x2048_S2048x8192_S256x8192_1_0_0_1_n_n_wf : DotDims.WF S256x2048 S2048x8192 S256x8192 [1] [0] [0] [1] [] []

variable [Facts₀]

def dot_S256x2048_S2048x8192_S256x8192_1_0_0_1_n_n : DotDims S256x2048 S2048x8192 S256x8192 where
  lhsContracting := [1]
  rhsContracting := [0]
  lhsNonContracting := [0]
  rhsNonContracting := [1]
  lhsBatch := []
  rhsBatch := []
  wf := dot_S256x2048_S2048x8192_S256x8192_1_0_0_1_n_n_wf

class Facts : Prop extends Facts₀ where

variable [Facts]
-- ==== Proof.Cell.lean ====
/-
  The mathematics both programs compute: one step of a stabilised, exponentially gated LSTM cell over a batch of 256
  rows and 2048 units, at the extended reals.

  For each of the four gates g in {z, i, f, o} the pre-activation at row b and unit j is

      pre_g(b, j) = (sum_k x[b,k] * W_g[k,j] + sum_k h[b,k] * U_g[k,j]) + beta_g[j].

  The stabiliser is m' = max (pre_i + m, pre_i); the input and forget activations are exp (pre_i - m') and
  exp ((pre_f + m) - m'); the cell and normaliser states are c' = f * c + i * tanh pre_z and n' = f * n + i; the hidden
  state is h' = logistic pre_o * (c' / (n' + eps)), with eps the single-precision word nearest 1e-8 read as its exact
  binary value. The result stacks h', c', n', m' along a new leading axis. Nothing here needs finiteness: both programs
  compute exactly this expression, the kernel one 128-unit column tile at a time, the reference through one wide
  product over the four weight matrices laid side by side.
-/
import Idealize.ShloMosaic.PureOps.Ideal
import Idealize.ShloMosaic.Lib.ValueIdx

noncomputable section

open scoped BigOperators

namespace Cert.Cell

open Idealize.ShloMosaic Idealize.ShloMosaic.ValueIdx

/-- A [256, 2048] activation or state array as a function of its index. -/
abbrev St : Type := (⟨2, ![256, 2048]⟩ : Shape).Idx → EReal
/-- A [2048, 2048] weight matrix (rows: inputs, columns: units). -/
abbrev Wt : Type := (⟨2, ![2048, 2048]⟩ : Shape).Idx → EReal
/-- A [2048] bias vector. -/
abbrev Bs : Type := (⟨1, ![2048]⟩ : Shape).Idx → EReal

/-- One gate's pre-activation at row `b`, unit `j`: the input product plus the recurrent product, then the bias. -/
def gate (x h : St) (W U : Wt) (β : Bs) (b : Fin 256) (j : Fin 2048) : EReal :=
  ((∑ k : Fin 2048, x (ix2 b k) * W (ix2 k j)) + ∑ k : Fin 2048, h (ix2 b k) * U (ix2 k j)) + β (ix1 j)

/-- A [2048, 128] column tile of a weight matrix, and the matching [1, 128] tile of a bias row. -/
abbrev WtT : Type := (⟨2, ![2048, 128]⟩ : Shape).Idx → EReal
abbrev BsT : Type := (⟨2, ![1, 128]⟩ : Shape).Idx → EReal

/-- The same pre-activation computed from one 128-column tile of the weights and of the bias row: row `b`, column `q` of the tile. -/
def gateT (x h : St) (W U : WtT) (β : BsT) (b : Fin 256) (q : Fin 128) : EReal :=
  ((∑ k : Fin 2048, x (ix2 b k) * W (ix2 k q)) + ∑ k : Fin 2048, h (ix2 b k) * U (ix2 k q)) + β (ix2 (0 : Fin 1) q)

/-- The additive stabiliser of the denominator: the single-precision word nearest 1e-8, at its exact binary value. -/
def eps : EReal := Ideal.ofBits .f32 0x322BCC77#32

/-- The new stabiliser from the input gate's pre-activation `it` and the old stabiliser `mp`. -/
def mNext (it mp : EReal) : EReal := max (it + mp) it
/-- The stabilised input activation. -/
def iAct (it mp : EReal) : EReal := Ideal.exp (it - mNext it mp)
/-- The stabilised forget activation. -/
def fAct (ft it mp : EReal) : EReal := Ideal.exp (ft + mp - mNext it mp)
/-- The new cell state. -/
def cNext (zt it ft mp cp : EReal) : EReal := fAct ft it mp * cp + iAct it mp * Ideal.tanh zt
/-- The new normaliser state. -/
def nNext (it ft mp np : EReal) : EReal := fAct ft it mp * np + iAct it mp
/-- The new hidden state. -/
def hNext (zt it ft ot mp cp np : EReal) : EReal :=
  Ideal.logistic ot * Ideal.div (cNext zt it ft mp cp) (nNext it ft mp np + eps)

/-- The seventeen argument arrays. -/
structure Args where
  x : St
  h : St
  c : St
  n : St
  m : St
  Wz : Wt
  Wi : Wt
  Wf : Wt
  Wo : Wt
  bz : Bs
  bi : Bs
  bf : Bs
  bo : Bs
  Uz : Wt
  Ui : Wt
  Uf : Wt
  Uo : Wt

variable (a : Args)

/-- The four gates' pre-activations. -/
def zt (b : Fin 256) (j : Fin 2048) : EReal := gate a.x a.h a.Wz a.Uz a.bz b j
def it (b : Fin 256) (j : Fin 2048) : EReal := gate a.x a.h a.Wi a.Ui a.bi b j
def ft (b : Fin 256) (j : Fin 2048) : EReal := gate a.x a.h a.Wf a.Uf a.bf b j
def ot (b : Fin 256) (j : Fin 2048) : EReal := gate a.x a.h a.Wo a.Uo a.bo b j

/-- The four result planes at row `b`, unit `j`. -/
def hOut (b : Fin 256) (j : Fin 2048) : EReal :=
  hNext (zt a b j) (it a b j) (ft a b j) (ot a b j) (a.m (ix2 b j)) (a.c (ix2 b j)) (a.n (ix2 b j))
def cOut (b : Fin 256) (j : Fin 2048) : EReal :=
  cNext (zt a b j) (it a b j) (ft a b j) (a.m (ix2 b j)) (a.c (ix2 b j))
def nOut (b : Fin 256) (j : Fin 2048) : EReal :=
  nNext (it a b j) (ft a b j) (a.m (ix2 b j)) (a.n (ix2 b j))
def mOut (b : Fin 256) (j : Fin 2048) : EReal := mNext (it a b j) (a.m (ix2 b j))

/-- The stacked result at plane `g`, row `b`, unit `j`: planes 0 to 3 are h', c', n', m'. -/
def out (g : Fin 4) (b : Fin 256) (j : Fin 2048) : EReal :=
  if g.val = 0 then hOut a b j else if g.val = 1 then cOut a b j else if g.val = 2 then nOut a b j else mOut a b j

end Cert.Cell

end
-- ==== Proof.TileB.lean ====
/-
  What one grid point of the kernel leaves in its four output tiles, as functions of the seventeen input tiles it
  loads: the two full activation arrays, the 128-column tiles of the three state arrays, of the eight weight matrices
  and of the four bias rows. The terms are the body's own arithmetic (the generated payload names), composed in the
  order the body computes them: the stabiliser tile first, the two exponential activations from it, then the cell,
  normaliser and hidden tiles.
-/
import proofs.«128341_j21380347199691_1_alg».proof.Proof.Gen.Kernel.Skeleton

noncomputable section

namespace Cert.Kernel.Tile

open Idealize.ShloMosaic Cert.Kernel Cert.Kernel.Gen

variable {F : FTy → Type} [FloatOps F]

/-- The input tiles one grid point reads, in the order of the kernel's operands. -/
structure In (F : FTy → Type) [FloatOps F] where
  x : Vec F S256x2048 .f32
  h : Vec F S256x2048 .f32
  c : Vec F S256x128 .f32
  n : Vec F S256x128 .f32
  m : Vec F S256x128 .f32
  Wz : Vec F S2048x128 .f32
  Wi : Vec F S2048x128 .f32
  Wf : Vec F S2048x128 .f32
  Wo : Vec F S2048x128 .f32
  bz : Vec F S1x128 .f32
  bi : Vec F S1x128 .f32
  bf : Vec F S1x128 .f32
  bo : Vec F S1x128 .f32
  Uz : Vec F S2048x128 .f32
  Ui : Vec F S2048x128 .f32
  Uf : Vec F S2048x128 .f32
  Uo : Vec F S2048x128 .f32

variable (u : In F)

/-- The new stabiliser tile: max (pre_i + m, pre_i). -/
def mTile : Vec F S256x128 .f32 := k0_pay4 u.x u.h u.m u.Wi u.Ui u.bi
/-- The input activation tile: exp (pre_i - m'). -/
def iTile : Vec F S256x128 .f32 := k0_pay5 u.x u.h u.m u.Wi u.Ui u.bi
/-- The forget activation tile: exp (pre_f + m - m'). -/
def fTile : Vec F S256x128 .f32 := k0_pay6 u.x u.h u.m u.Wi u.Ui u.bi u.Wf u.Uf u.bf
/-- The new cell-state tile: f * c + i * tanh pre_z. -/
def cTile : Vec F S256x128 .f32 := k0_pay7 (k0_pay1 u.x) (k0_pay2 u.h) (iTile u) (fTile u) u.Wz u.Uz u.bz u.c
/-- The new normaliser tile: f * n + i. -/
def nTile : Vec F S256x128 .f32 := k0_pay8 (iTile u) (fTile u) u.n
/-- The new hidden-state tile: logistic pre_o * (c' / (n' + eps)). -/
def hTile : Vec F S256x128 .f32 :=
  k0_pay9 (k0_pay1 u.x) (k0_pay2 u.h) (iTile u) (fTile u) u.Wz u.Uz u.bz u.Wo u.Uo u.bo u.c u.n

end Cert.Kernel.Tile

end
-- ==== Proof.FrameB.lean ====
/-
  The frame of the program: every weakly fair execution of @main terminates without a fault and leaves the
  seventeen argument arrays as launched.

  @main is four reshapes of the bias vectors to rows, the one pipelined region over sixteen grid points (one per
  128-column tile of the units), and five layout operations that stack the four results. The region's proof data:
  each array as the region finds it; after the body at point t each of the seventeen input windows holds its block
  at t (the two activation arrays whole, the rest their t-th column tile) and each of the four output windows holds
  the tile the body computed from those blocks (the stabiliser, cell, normaliser and hidden tiles). The body reads
  every input buffer through one whole rectangle and overwrites every output buffer through one whole rectangle, so
  the old contents of the output buffers, although loaded, reach nothing. The operations after the region write only
  their own result buffers, none of which is an array of the pipeline.
-/
import proofs.«128341_j21380347199691_1_alg».proof.Proof.Gen.Kernel.Launch
import proofs.«128341_j21380347199691_1_alg».proof.Proof.Gen.Kernel.Skeleton
import proofs.«128341_j21380347199691_1_alg».proof.Proof.Gen.Kernel.Points
import proofs.«128341_j21380347199691_1_alg».proof.Proof.TileB
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch contents with the four bias rows written. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Neither stretch of host operations allocates a buffer. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the reshapes, then the region continued by the stacking operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The stacking operations touch unscoped buffers only, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and write no array of the pipeline: each writes its own result (one of the four unit planes or the stack). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- A buffer that is none of the four bias rows is found by the region as launched. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    exact ⟨StableHlo.devRef_ne_of_ne h0, StableHlo.devRef_ne_of_ne h1, StableHlo.devRef_ne_of_ne h2, StableHlo.devRef_ne_of_ne h3⟩))

/-- A buffer that is no array of the pipeline, none of the bias rows and no result of a stacking operation ends as launched. -/
theorem W_kept (dats : (p : Fin _) → (c : Dev nD) → Dat τ (Elt F) Unit ℕ (UR sig nD τ) ℕ (cfgs p) c) (c : Dev nD) (b : Ref sig .tc)
    (hw : ∀ w, Pipeline.arrRef spec0 w ≠ b) (h0 : b ≠ main_v0) (h1 : b ≠ main_v1) (h2 : b ≠ main_v2) (h3 : b ≠ main_v3)
    (h5 : b ≠ main_v5) (h6 : b ≠ main_v6) (h7 : b ≠ main_v7) (h8 : b ≠ main_v8) (h9 : b ≠ main_v9) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact ⟨StableHlo.devRef_ne_of_ne h5, StableHlo.devRef_ne_of_ne h6, StableHlo.devRef_ne_of_ne h7, StableHlo.devRef_ne_of_ne h8, StableHlo.devRef_ne_of_ne h9⟩)),
    Pipeline.withArrays_of_ne _ c (V0 m c) _ b hw]
  exact V_kept m c b h0 h1 h2 h3

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (the two whole
    activation arrays are fetched once, and their block index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not (the two whole
    activation arrays are fetched once, and their block index never moves). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not (the two whole
    activation arrays are fetched once, and their block index never moves). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not (the two whole
    activation arrays are fetched once, and their block index never moves). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not (the two whole
    activation arrays are fetched once, and their block index never moves). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not (the two whole
    activation arrays are fetched once, and their block index never moves). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not (the two whole
    activation arrays are fetched once, and their block index never moves). -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not (the two whole
    activation arrays are fetched once, and their block index never moves). -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or not (the two whole
    activation arrays are fetched once, and their block index never moves). -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or not (the two whole
    activation arrays are fetched once, and their block index never moves). -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, fetched there or not (the two whole
    activation arrays are fetched once, and their block index never moves). -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current buffer holds its block at every point, fetched there or not (the two whole
    activation arrays are fetched once, and their block index never moves). -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current buffer holds its block at every point, fetched there or not (the two whole
    activation arrays are fetched once, and their block index never moves). -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current buffer holds its block at every point, fetched there or not (the two whole
    activation arrays are fetched once, and their block index never moves). -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current buffer holds its block at every point, fetched there or not (the two whole
    activation arrays are fetched once, and their block index never moves). -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current buffer holds its block at every point, fetched there or not (the two whole
    activation arrays are fetched once, and their block index never moves). -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's current buffer holds its block at every point, fetched there or not (the two whole
    activation arrays are fetched once, and their block index never moves). -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

set_option maxHeartbeats 4000000 in
/-- For any proof data whose arrays are the region-entry contents, a run to the library's frame post gives the claim's
    post: an argument a window stages ends at its entry contents (an input window never writes back), one no window
    stages (the four bias vectors) by the post's clause for the remaining buffers; either way as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_kept m c main_arg0 (by decide) (by decide) (by decide) (by decide)))),
    ((h c).1 1).trans (((dats 0 c).arrAt_in 1 rfl _).trans ((hA c 1).trans (V_kept m c main_arg1 (by decide) (by decide) (by decide) (by decide)))),
    ((h c).1 2).trans (((dats 0 c).arrAt_in 2 rfl _).trans ((hA c 2).trans (V_kept m c main_arg2 (by decide) (by decide) (by decide) (by decide)))),
    ((h c).1 3).trans (((dats 0 c).arrAt_in 3 rfl _).trans ((hA c 3).trans (V_kept m c main_arg3 (by decide) (by decide) (by decide) (by decide)))),
    ((h c).1 4).trans (((dats 0 c).arrAt_in 4 rfl _).trans ((hA c 4).trans (V_kept m c main_arg4 (by decide) (by decide) (by decide) (by decide)))),
    ((h c).1 5).trans (((dats 0 c).arrAt_in 5 rfl _).trans ((hA c 5).trans (V_kept m c main_arg5 (by decide) (by decide) (by decide) (by decide)))),
    ((h c).1 6).trans (((dats 0 c).arrAt_in 6 rfl _).trans ((hA c 6).trans (V_kept m c main_arg6 (by decide) (by decide) (by decide) (by decide)))),
    ((h c).1 7).trans (((dats 0 c).arrAt_in 7 rfl _).trans ((hA c 7).trans (V_kept m c main_arg7 (by decide) (by decide) (by decide) (by decide)))),
    ((h c).1 8).trans (((dats 0 c).arrAt_in 8 rfl _).trans ((hA c 8).trans (V_kept m c main_arg8 (by decide) (by decide) (by decide) (by decide)))),
    ((h c).2 main_arg9 (Pipeline.mem_restRefs_of main_arg9 (by decide) (by decide))).trans (W_kept m dats c main_arg9 (by decide) (by decide) (by decide) (by decide) (by decide) (by decide) (by decide) (by decide) (by decide) (by decide)),
    ((h c).2 main_arg10 (Pipeline.mem_restRefs_of main_arg10 (by decide) (by decide))).trans (W_kept m dats c main_arg10 (by decide) (by decide) (by decide) (by decide) (by decide) (by decide) (by decide) (by decide) (by decide) (by decide)),
    ((h c).2 main_arg11 (Pipeline.mem_restRefs_of main_arg11 (by decide) (by decide))).trans (W_kept m dats c main_arg11 (by decide) (by decide) (by decide) (by decide) (by decide) (by decide) (by decide) (by decide) (by decide) (by decide)),
    ((h c).2 main_arg12 (Pipeline.mem_restRefs_of main_arg12 (by decide) (by decide))).trans (W_kept m dats c main_arg12 (by decide) (by decide) (by decide) (by decide) (by decide) (by decide) (by decide) (by decide) (by decide) (by decide)),
    ((h c).1 13).trans (((dats 0 c).arrAt_in 13 rfl _).trans ((hA c 13).trans (V_kept m c main_arg13 (by decide) (by decide) (by decide) (by decide)))),
    ((h c).1 14).trans (((dats 0 c).arrAt_in 14 rfl _).trans ((hA c 14).trans (V_kept m c main_arg14 (by decide) (by decide) (by decide) (by decide)))),
    ((h c).1 15).trans (((dats 0 c).arrAt_in 15 rfl _).trans ((hA c 15).trans (V_kept m c main_arg15 (by decide) (by decide) (by decide) (by decide)))),
    ((h c).1 16).trans (((dats 0 c).arrAt_in 16 rfl _).trans ((hA c 16).trans (V_kept m c main_arg16 (by decide) (by decide) (by decide) (by decide))))⟩) h

/-! ## What the body leaves in the output buffers -/

/-- The whole [256, 128] rectangle every output buffer is stored through. -/
abbrev rT : Rect S256x128 := Rect.unit (s := S256x128) ![0, 0] S256x128.size inb_S256x128_S256x128_0_0

/-- The one store of a tile through the whole rectangle covers the buffer. -/
theorem coverT (p0 : Vec F S256x128 .f32) (y : S256x128.Idx) :
    ∃ pc ∈ ([⟨rT, p0⟩] : List (View.Piece (Elt F) S256x128 .f32)), y ∈ pc.1.set :=
  View.cover_of_tiled [⟨rT, p0⟩] S256x128.size (by rfl) y

/-- The whole rectangles the body loads an activation array, a weight tile and a bias tile through. -/
abbrev rA : Rect S256x2048 := Rect.unit (s := S256x2048) ![0, 0] S256x2048.size inb_S256x2048_S256x2048_0_0
abbrev rW : Rect S2048x128 := Rect.unit (s := S2048x128) ![0, 0] S2048x128.size inb_S2048x128_S2048x128_0_0
abbrev rB : Rect S1x128 := Rect.unit (s := S1x128) ![0, 0] S1x128.size inb_S1x128_S1x128_0_0

/-- The input tiles as the body loads them: each buffer read through its whole rectangle. -/
def loaded (u : Tile.In F) : Tile.In F :=
  ⟨View.ld u.x rA, View.ld u.h rA, View.ld u.c rT, View.ld u.n rT, View.ld u.m rT, View.ld u.Wz rW, View.ld u.Wi rW, View.ld u.Wf rW, View.ld u.Wo rW, View.ld u.bz rB, View.ld u.bi rB, View.ld u.bf rB, View.ld u.bo rB, View.ld u.Uz rW, View.ld u.Ui rW, View.ld u.Uf rW, View.ld u.Uo rW⟩

/-- The four output buffers after the body: the hidden, cell, normaliser and stabiliser tiles of the loaded input
    tiles, each stored through the whole rectangle. -/
def outH (u : Tile.In F) : Vec F S256x128 .f32 := View.canon [⟨rT, Tile.hTile (loaded u)⟩]
def outC (u : Tile.In F) : Vec F S256x128 .f32 := View.canon [⟨rT, Tile.cTile (loaded u)⟩]
def outN (u : Tile.In F) : Vec F S256x128 .f32 := View.canon [⟨rT, Tile.nTile (loaded u)⟩]
def outM (u : Tile.In F) : Vec F S256x128 .f32 := View.canon [⟨rT, Tile.mTile (loaded u)⟩]

/-- The offset of every such rectangle is the origin. -/
theorem origin2 : (![0, 0] : Fin 2 → Nat) = fun _ => 0 := by
  funext a; fin_cases a <;> rfl

/-- A load through the whole rectangle reads the buffer itself, -/
theorem loaded_eq (u : Tile.In F) : loaded u = u := by
  cases u
  simp only [loaded, View.ld_unit_zero (S := S256x2048) origin2, View.ld_unit_zero (S := S256x128) origin2,
    View.ld_unit_zero (S := S2048x128) origin2, View.ld_unit_zero (S := S1x128) origin2]

/-- and a store through it leaves its payload: the output buffers hold exactly the four tiles. -/
theorem outH_eq (u : Tile.In F) : outH u = Tile.hTile u := by
  unfold outH; rw [View.canon_unit_zero (S := S256x128) origin2, loaded_eq]
theorem outC_eq (u : Tile.In F) : outC u = Tile.cTile u := by
  unfold outC; rw [View.canon_unit_zero (S := S256x128) origin2, loaded_eq]
theorem outN_eq (u : Tile.In F) : outN u = Tile.nTile u := by
  unfold outN; rw [View.canon_unit_zero (S := S256x128) origin2, loaded_eq]
theorem outM_eq (u : Tile.In F) : outM u = Tile.mTile u := by
  unfold outM; rw [View.canon_unit_zero (S := S256x128) origin2, loaded_eq]

/-! ## The body's triple -/

set_option maxHeartbeats 4000000 in
/-- The body on whole buffers, the inputs' at contents `xW` and the outputs' at anything, runs to a continuation that
    holds the inputs' as they were and each output's at its tile of the inputs'. -/
theorem sound_kernel (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
    (x0 : Vec F S256x2048 .f32) (x1 : Vec F S256x2048 .f32) (x2 : Vec F S256x128 .f32) (x3 : Vec F S256x128 .f32) (x4 : Vec F S256x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S1x128 .f32) (x13 : Vec F S2048x128 .f32) (x14 : Vec F S2048x128 .f32) (x15 : Vec F S2048x128 .f32) (x16 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (outH (⟨x0, x1, x2, x3, x4, x5, x6, x7, x8, x9, x10, x11, x12, x13, x14, x15, x16⟩ : Tile.In F)) ∗ owns (c : Thread nD τ) arg19 fullShare (outC (⟨x0, x1, x2, x3, x4, x5, x6, x7, x8, x9, x10, x11, x12, x13, x14, x15, x16⟩ : Tile.In F)) ∗ owns (c : Thread nD τ) arg20 fullShare (outN (⟨x0, x1, x2, x3, x4, x5, x6, x7, x8, x9, x10, x11, x12, x13, x14, x15, x16⟩ : Tile.In F)) ∗ owns (c : Thread nD τ) arg21 fullShare (outM (⟨x0, x1, x2, x3, x4, x5, x6, x7, x8, x9, x10, x11, x12, x13, x14, x15, x16⟩ : Tile.In F))) -∗ K ⟨⟩))
      ⊢ wp frame (wpE (defs₀ (F := F)) Variants.none c none) E (cc0__slstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__slstm_kernel_eq_skeleton]; unfold cc0__slstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    sl_unfold_words
    exact View.read_writes_eq_canon _ _ _ (coverT (F := F) _)
  isplitl [H18]
  · iexists _; isplitr
    swap; · iexact H18
    ipureintro
    sl_unfold_words
    exact View.read_writes_eq_canon _ _ _ (coverT (F := F) _)
  isplitl [H19]
  · iexists _; isplitr
    swap; · iexact H19
    ipureintro
    sl_unfold_words
    exact View.read_writes_eq_canon _ _ _ (coverT (F := F) _)
  iexists _; isplitr
  swap; · iexact H20
  ipureintro
  sl_unfold_words
  exact View.read_writes_eq_canon _ _ _ (coverT (F := F) _)

/-! ## The region's proof data -/

/-- The seventeen input tiles grid point `t` reads, as blocks of the arrays the region finds. -/
def tiles (c : Dev nD) (t : Fin cfg0.N) : Tile.In F := (⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩ : Tile.In F)

/-- The proof data of the pipeline on core `c`: the arrays as the region finds them; after the body at point `t` every
    input buffer at its block and every output buffer at its tile of the input blocks; nothing of the kernel's own in
    the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outH (tiles m c t)
    | ⟨18, _⟩ => outC (tiles m c t)
    | ⟨19, _⟩ => outN (tiles m c t)
    | ⟨20, _⟩ => outM (tiles m c t)
    | ⟨_ + 21, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = outH (tiles m c t) := by dsimp only [dats]
theorem after18 (c : Dev nD) (t : Fin cfg0.N) : (dats m 0 c).after 18 t = outC (tiles m c t) := by dsimp only [dats]
theorem after19 (c : Dev nD) (t : Fin cfg0.N) : (dats m 0 c).after 19 t = outN (tiles m c t) := by dsimp only [dats]
theorem after20 (c : Dev nD) (t : Fin cfg0.N) : (dats m 0 c).after 20 t = outM (tiles m c t) := by dsimp only [dats]

/-- Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

set_option maxHeartbeats 2000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state every array of the pipeline holds what
    the proof data say and every other unscoped buffer what the stacking operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_sub) (hfresh := suffix_fresh') (hkeep := suffix_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Fr

end
-- ==== Proof.TileI.lean ====
/-
  What one grid point of the kernel leaves in its four output tiles, as functions of the seventeen input tiles it
  loads: the two full activation arrays, the 128-column tiles of the three state arrays, of the eight weight matrices
  and of the four bias rows. The terms are the body's own arithmetic (the generated payload names), composed in the
  order the body computes them: the stabiliser tile first, the two exponential activations from it, then the cell,
  normaliser and hidden tiles.
-/
import proofs.«128341_j21380347199691_1_alg».proof.Proof.Gen.KernelIdeal.Skeleton

noncomputable section

namespace Cert.KernelIdeal.Tile

open Idealize.ShloMosaic Cert.KernelIdeal Cert.KernelIdeal.Gen

variable {F : FTy → Type} [FloatOps F]

/-- The input tiles one grid point reads, in the order of the kernel's operands. -/
structure In (F : FTy → Type) [FloatOps F] where
  x : Vec F S256x2048 .f32
  h : Vec F S256x2048 .f32
  c : Vec F S256x128 .f32
  n : Vec F S256x128 .f32
  m : Vec F S256x128 .f32
  Wz : Vec F S2048x128 .f32
  Wi : Vec F S2048x128 .f32
  Wf : Vec F S2048x128 .f32
  Wo : Vec F S2048x128 .f32
  bz : Vec F S1x128 .f32
  bi : Vec F S1x128 .f32
  bf : Vec F S1x128 .f32
  bo : Vec F S1x128 .f32
  Uz : Vec F S2048x128 .f32
  Ui : Vec F S2048x128 .f32
  Uf : Vec F S2048x128 .f32
  Uo : Vec F S2048x128 .f32

variable (u : In F)

/-- The new stabiliser tile: max (pre_i + m, pre_i). -/
def mTile : Vec F S256x128 .f32 := k0_pay4 u.x u.h u.m u.Wi u.Ui u.bi
/-- The input activation tile: exp (pre_i - m'). -/
def iTile : Vec F S256x128 .f32 := k0_pay5 u.x u.h u.m u.Wi u.Ui u.bi
/-- The forget activation tile: exp (pre_f + m - m'). -/
def fTile : Vec F S256x128 .f32 := k0_pay6 u.x u.h u.m u.Wi u.Ui u.bi u.Wf u.Uf u.bf
/-- The new cell-state tile: f * c + i * tanh pre_z. -/
def cTile : Vec F S256x128 .f32 := k0_pay7 (k0_pay1 u.x) (k0_pay2 u.h) (iTile u) (fTile u) u.Wz u.Uz u.bz u.c
/-- The new normaliser tile: f * n + i. -/
def nTile : Vec F S256x128 .f32 := k0_pay8 (iTile u) (fTile u) u.n
/-- The new hidden-state tile: logistic pre_o * (c' / (n' + eps)). -/
def hTile : Vec F S256x128 .f32 :=
  k0_pay9 (k0_pay1 u.x) (k0_pay2 u.h) (iTile u) (fTile u) u.Wz u.Uz u.bz u.Wo u.Uo u.bo u.c u.n

end Cert.KernelIdeal.Tile

end
-- ==== Proof.FrameI.lean ====
/-
  The frame of the program: every weakly fair execution of @main terminates without a fault and leaves the
  seventeen argument arrays as launched.

  @main is four reshapes of the bias vectors to rows, the one pipelined region over sixteen grid points (one per
  128-column tile of the units), and five layout operations that stack the four results. The region's proof data:
  each array as the region finds it; after the body at point t each of the seventeen input windows holds its block
  at t (the two activation arrays whole, the rest their t-th column tile) and each of the four output windows holds
  the tile the body computed from those blocks (the stabiliser, cell, normaliser and hidden tiles). The body reads
  every input buffer through one whole rectangle and overwrites every output buffer through one whole rectangle, so
  the old contents of the output buffers, although loaded, reach nothing. The operations after the region write only
  their own result buffers, none of which is an array of the pipeline.
-/
import proofs.«128341_j21380347199691_1_alg».proof.Proof.Gen.KernelIdeal.Launch
import proofs.«128341_j21380347199691_1_alg».proof.Proof.Gen.KernelIdeal.Skeleton
import proofs.«128341_j21380347199691_1_alg».proof.Proof.Gen.KernelIdeal.Points
import proofs.«128341_j21380347199691_1_alg».proof.Proof.TileI
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch contents with the four bias rows written. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-- Neither stretch of host operations allocates a buffer. -/
theorem prefix_fresh : (hostOps0 : List (HloOp τ sig (Elt F))).Forall fun op => op.fresh = ∅ := by
  simp only [List.Forall]; repeat' constructor
theorem suffix_fresh : (hostOps1 : List (HloOp τ sig (Elt F))).Forall fun op => op.fresh = ∅ := by
  simp only [List.Forall]; repeat' constructor

/-- @main is the reshapes, then the region continued by the stacking operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact prefix_fresh) main_chain

/-- The stacking operations touch unscoped buffers only, -/
theorem suffix_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem suffix_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp suffix_fresh) op hop
/-- and write no array of the pipeline: each writes its own result (one of the four unit planes or the stack). -/
theorem suffix_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- A buffer that is none of the four bias rows is found by the region as launched. -/
theorem V_kept (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    exact ⟨StableHlo.devRef_ne_of_ne h0, StableHlo.devRef_ne_of_ne h1, StableHlo.devRef_ne_of_ne h2, StableHlo.devRef_ne_of_ne h3⟩))

/-- A buffer that is no array of the pipeline, none of the bias rows and no result of a stacking operation ends as launched. -/
theorem W_kept (dats : (p : Fin _) → (c : Dev nD) → Dat τ (Elt F) Unit ℕ (UR sig nD τ) ℕ (cfgs p) c) (c : Dev nD) (b : Ref sig .tc)
    (hw : ∀ w, Pipeline.arrRef spec0 w ≠ b) (h0 : b ≠ main_v0) (h1 : b ≠ main_v1) (h2 : b ≠ main_v2) (h3 : b ≠ main_v3)
    (h5 : b ≠ main_v5) (h6 : b ≠ main_v6) (h7 : b ≠ main_v7) (h8 : b ≠ main_v8) (h9 : b ≠ main_v9) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact ⟨StableHlo.devRef_ne_of_ne h5, StableHlo.devRef_ne_of_ne h6, StableHlo.devRef_ne_of_ne h7, StableHlo.devRef_ne_of_ne h8, StableHlo.devRef_ne_of_ne h9⟩)),
    Pipeline.withArrays_of_ne _ c (V0 m c) _ b hw]
  exact V_kept m c b h0 h1 h2 h3

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, fetched there or not (the two whole
    activation arrays are fetched once, and their block index never moves). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current buffer holds its block at every point, fetched there or not (the two whole
    activation arrays are fetched once, and their block index never moves). -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current buffer holds its block at every point, fetched there or not (the two whole
    activation arrays are fetched once, and their block index never moves). -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current buffer holds its block at every point, fetched there or not (the two whole
    activation arrays are fetched once, and their block index never moves). -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current buffer holds its block at every point, fetched there or not (the two whole
    activation arrays are fetched once, and their block index never moves). -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current buffer holds its block at every point, fetched there or not (the two whole
    activation arrays are fetched once, and their block index never moves). -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current buffer holds its block at every point, fetched there or not (the two whole
    activation arrays are fetched once, and their block index never moves). -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current buffer holds its block at every point, fetched there or not (the two whole
    activation arrays are fetched once, and their block index never moves). -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current buffer holds its block at every point, fetched there or not (the two whole
    activation arrays are fetched once, and their block index never moves). -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current buffer holds its block at every point, fetched there or not (the two whole
    activation arrays are fetched once, and their block index never moves). -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current buffer holds its block at every point, fetched there or not (the two whole
    activation arrays are fetched once, and their block index never moves). -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current buffer holds its block at every point, fetched there or not (the two whole
    activation arrays are fetched once, and their block index never moves). -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current buffer holds its block at every point, fetched there or not (the two whole
    activation arrays are fetched once, and their block index never moves). -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current buffer holds its block at every point, fetched there or not (the two whole
    activation arrays are fetched once, and their block index never moves). -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current buffer holds its block at every point, fetched there or not (the two whole
    activation arrays are fetched once, and their block index never moves). -/
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-- Input window 15's current buffer holds its block at every point, fetched there or not (the two whole
    activation arrays are fetched once, and their block index never moves). -/
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-- Input window 16's current buffer holds its block at every point, fetched there or not (the two whole
    activation arrays are fetched once, and their block index never moves). -/
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

set_option maxHeartbeats 4000000 in
/-- For any proof data whose arrays are the region-entry contents, a run to the library's frame post gives the claim's
    post: an argument a window stages ends at its entry contents (an input window never writes back), one no window
    stages (the four bias vectors) by the post's clause for the remaining buffers; either way as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_kept m c main_arg0 (by decide) (by decide) (by decide) (by decide)))),
    ((h c).1 1).trans (((dats 0 c).arrAt_in 1 rfl _).trans ((hA c 1).trans (V_kept m c main_arg1 (by decide) (by decide) (by decide) (by decide)))),
    ((h c).1 2).trans (((dats 0 c).arrAt_in 2 rfl _).trans ((hA c 2).trans (V_kept m c main_arg2 (by decide) (by decide) (by decide) (by decide)))),
    ((h c).1 3).trans (((dats 0 c).arrAt_in 3 rfl _).trans ((hA c 3).trans (V_kept m c main_arg3 (by decide) (by decide) (by decide) (by decide)))),
    ((h c).1 4).trans (((dats 0 c).arrAt_in 4 rfl _).trans ((hA c 4).trans (V_kept m c main_arg4 (by decide) (by decide) (by decide) (by decide)))),
    ((h c).1 5).trans (((dats 0 c).arrAt_in 5 rfl _).trans ((hA c 5).trans (V_kept m c main_arg5 (by decide) (by decide) (by decide) (by decide)))),
    ((h c).1 6).trans (((dats 0 c).arrAt_in 6 rfl _).trans ((hA c 6).trans (V_kept m c main_arg6 (by decide) (by decide) (by decide) (by decide)))),
    ((h c).1 7).trans (((dats 0 c).arrAt_in 7 rfl _).trans ((hA c 7).trans (V_kept m c main_arg7 (by decide) (by decide) (by decide) (by decide)))),
    ((h c).1 8).trans (((dats 0 c).arrAt_in 8 rfl _).trans ((hA c 8).trans (V_kept m c main_arg8 (by decide) (by decide) (by decide) (by decide)))),
    ((h c).2 main_arg9 (Pipeline.mem_restRefs_of main_arg9 (by decide) (by decide))).trans (W_kept m dats c main_arg9 (by decide) (by decide) (by decide) (by decide) (by decide) (by decide) (by decide) (by decide) (by decide) (by decide)),
    ((h c).2 main_arg10 (Pipeline.mem_restRefs_of main_arg10 (by decide) (by decide))).trans (W_kept m dats c main_arg10 (by decide) (by decide) (by decide) (by decide) (by decide) (by decide) (by decide) (by decide) (by decide) (by decide)),
    ((h c).2 main_arg11 (Pipeline.mem_restRefs_of main_arg11 (by decide) (by decide))).trans (W_kept m dats c main_arg11 (by decide) (by decide) (by decide) (by decide) (by decide) (by decide) (by decide) (by decide) (by decide) (by decide)),
    ((h c).2 main_arg12 (Pipeline.mem_restRefs_of main_arg12 (by decide) (by decide))).trans (W_kept m dats c main_arg12 (by decide) (by decide) (by decide) (by decide) (by decide) (by decide) (by decide) (by decide) (by decide) (by decide)),
    ((h c).1 13).trans (((dats 0 c).arrAt_in 13 rfl _).trans ((hA c 13).trans (V_kept m c main_arg13 (by decide) (by decide) (by decide) (by decide)))),
    ((h c).1 14).trans (((dats 0 c).arrAt_in 14 rfl _).trans ((hA c 14).trans (V_kept m c main_arg14 (by decide) (by decide) (by decide) (by decide)))),
    ((h c).1 15).trans (((dats 0 c).arrAt_in 15 rfl _).trans ((hA c 15).trans (V_kept m c main_arg15 (by decide) (by decide) (by decide) (by decide)))),
    ((h c).1 16).trans (((dats 0 c).arrAt_in 16 rfl _).trans ((hA c 16).trans (V_kept m c main_arg16 (by decide) (by decide) (by decide) (by decide))))⟩) h

/-! ## What the body leaves in the output buffers -/

/-- The whole [256, 128] rectangle every output buffer is stored through. -/
abbrev rT : Rect S256x128 := Rect.unit (s := S256x128) ![0, 0] S256x128.size inb_S256x128_S256x128_0_0

/-- The one store of a tile through the whole rectangle covers the buffer. -/
theorem coverT (p0 : Vec F S256x128 .f32) (y : S256x128.Idx) :
    ∃ pc ∈ ([⟨rT, p0⟩] : List (View.Piece (Elt F) S256x128 .f32)), y ∈ pc.1.set :=
  View.cover_of_tiled [⟨rT, p0⟩] S256x128.size (by rfl) y

/-- The whole rectangles the body loads an activation array, a weight tile and a bias tile through. -/
abbrev rA : Rect S256x2048 := Rect.unit (s := S256x2048) ![0, 0] S256x2048.size inb_S256x2048_S256x2048_0_0
abbrev rW : Rect S2048x128 := Rect.unit (s := S2048x128) ![0, 0] S2048x128.size inb_S2048x128_S2048x128_0_0
abbrev rB : Rect S1x128 := Rect.unit (s := S1x128) ![0, 0] S1x128.size inb_S1x128_S1x128_0_0

/-- The input tiles as the body loads them: each buffer read through its whole rectangle. -/
def loaded (u : Tile.In F) : Tile.In F :=
  ⟨View.ld u.x rA, View.ld u.h rA, View.ld u.c rT, View.ld u.n rT, View.ld u.m rT, View.ld u.Wz rW, View.ld u.Wi rW, View.ld u.Wf rW, View.ld u.Wo rW, View.ld u.bz rB, View.ld u.bi rB, View.ld u.bf rB, View.ld u.bo rB, View.ld u.Uz rW, View.ld u.Ui rW, View.ld u.Uf rW, View.ld u.Uo rW⟩

/-- The four output buffers after the body: the hidden, cell, normaliser and stabiliser tiles of the loaded input
    tiles, each stored through the whole rectangle. -/
def outH (u : Tile.In F) : Vec F S256x128 .f32 := View.canon [⟨rT, Tile.hTile (loaded u)⟩]
def outC (u : Tile.In F) : Vec F S256x128 .f32 := View.canon [⟨rT, Tile.cTile (loaded u)⟩]
def outN (u : Tile.In F) : Vec F S256x128 .f32 := View.canon [⟨rT, Tile.nTile (loaded u)⟩]
def outM (u : Tile.In F) : Vec F S256x128 .f32 := View.canon [⟨rT, Tile.mTile (loaded u)⟩]

/-- The offset of every such rectangle is the origin. -/
theorem origin2 : (![0, 0] : Fin 2 → Nat) = fun _ => 0 := by
  funext a; fin_cases a <;> rfl

/-- A load through the whole rectangle reads the buffer itself, -/
theorem loaded_eq (u : Tile.In F) : loaded u = u := by
  cases u
  simp only [loaded, View.ld_unit_zero (S := S256x2048) origin2, View.ld_unit_zero (S := S256x128) origin2,
    View.ld_unit_zero (S := S2048x128) origin2, View.ld_unit_zero (S := S1x128) origin2]

/-- and a store through it leaves its payload: the output buffers hold exactly the four tiles. -/
theorem outH_eq (u : Tile.In F) : outH u = Tile.hTile u := by
  unfold outH; rw [View.canon_unit_zero (S := S256x128) origin2, loaded_eq]
theorem outC_eq (u : Tile.In F) : outC u = Tile.cTile u := by
  unfold outC; rw [View.canon_unit_zero (S := S256x128) origin2, loaded_eq]
theorem outN_eq (u : Tile.In F) : outN u = Tile.nTile u := by
  unfold outN; rw [View.canon_unit_zero (S := S256x128) origin2, loaded_eq]
theorem outM_eq (u : Tile.In F) : outM u = Tile.mTile u := by
  unfold outM; rw [View.canon_unit_zero (S := S256x128) origin2, loaded_eq]

/-! ## The body's triple -/

set_option maxHeartbeats 4000000 in
/-- The body on whole buffers, the inputs' at contents `xW` and the outputs' at anything, runs to a continuation that
    holds the inputs' as they were and each output's at its tile of the inputs'. -/
theorem sound_kernel (c : Dev nD) (E : Set ℕ) (i : grid0.Coords) (arg1 : Memref sig .tc .vmem S256x2048 .f32) (harg1 : arg1.IsWhole) (arg2 : Memref sig .tc .vmem S256x2048 .f32) (harg2 : arg2.IsWhole) (arg3 : Memref sig .tc .vmem S256x128 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S2048x128 .f32) (harg14 : arg14.IsWhole) (arg15 : Memref sig .tc .vmem S2048x128 .f32) (harg15 : arg15.IsWhole) (arg16 : Memref sig .tc .vmem S2048x128 .f32) (harg16 : arg16.IsWhole) (arg17 : Memref sig .tc .vmem S2048x128 .f32) (harg17 : arg17.IsWhole) (arg18 : Memref sig .tc .vmem S256x128 .f32) (harg18 : arg18.IsWhole) (arg19 : Memref sig .tc .vmem S256x128 .f32) (harg19 : arg19.IsWhole) (arg20 : Memref sig .tc .vmem S256x128 .f32) (harg20 : arg20.IsWhole) (arg21 : Memref sig .tc .vmem S256x128 .f32) (harg21 : arg21.IsWhole)
    (x0 : Vec F S256x2048 .f32) (x1 : Vec F S256x2048 .f32) (x2 : Vec F S256x128 .f32) (x3 : Vec F S256x128 .f32) (x4 : Vec F S256x128 .f32) (x5 : Vec F S2048x128 .f32) (x6 : Vec F S2048x128 .f32) (x7 : Vec F S2048x128 .f32) (x8 : Vec F S2048x128 .f32) (x9 : Vec F S1x128 .f32) (x10 : Vec F S1x128 .f32) (x11 : Vec F S1x128 .f32) (x12 : Vec F S1x128 .f32) (x13 : Vec F S2048x128 .f32) (x14 : Vec F S2048x128 .f32) (x15 : Vec F S2048x128 .f32) (x16 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (outH (⟨x0, x1, x2, x3, x4, x5, x6, x7, x8, x9, x10, x11, x12, x13, x14, x15, x16⟩ : Tile.In F)) ∗ owns (c : Thread nD τ) arg19 fullShare (outC (⟨x0, x1, x2, x3, x4, x5, x6, x7, x8, x9, x10, x11, x12, x13, x14, x15, x16⟩ : Tile.In F)) ∗ owns (c : Thread nD τ) arg20 fullShare (outN (⟨x0, x1, x2, x3, x4, x5, x6, x7, x8, x9, x10, x11, x12, x13, x14, x15, x16⟩ : Tile.In F)) ∗ owns (c : Thread nD τ) arg21 fullShare (outM (⟨x0, x1, x2, x3, x4, x5, x6, x7, x8, x9, x10, x11, x12, x13, x14, x15, x16⟩ : Tile.In F))) -∗ K ⟨⟩))
      ⊢ wp frame (wpE (defs₀ (F := F)) Variants.none c none) E (cc0__slstm_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__slstm_kernel_eq_skeleton]; unfold cc0__slstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    sl_unfold_words
    exact View.read_writes_eq_canon _ _ _ (coverT (F := F) _)
  isplitl [H18]
  · iexists _; isplitr
    swap; · iexact H18
    ipureintro
    sl_unfold_words
    exact View.read_writes_eq_canon _ _ _ (coverT (F := F) _)
  isplitl [H19]
  · iexists _; isplitr
    swap; · iexact H19
    ipureintro
    sl_unfold_words
    exact View.read_writes_eq_canon _ _ _ (coverT (F := F) _)
  iexists _; isplitr
  swap; · iexact H20
  ipureintro
  sl_unfold_words
  exact View.read_writes_eq_canon _ _ _ (coverT (F := F) _)

/-! ## The region's proof data -/

/-- The seventeen input tiles grid point `t` reads, as blocks of the arrays the region finds. -/
def tiles (c : Dev nD) (t : Fin cfg0.N) : Tile.In F := (⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩ : Tile.In F)

/-- The proof data of the pipeline on core `c`: the arrays as the region finds them; after the body at point `t` every
    input buffer at its block and every output buffer at its tile of the input blocks; nothing of the kernel's own in
    the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outH (tiles m c t)
    | ⟨18, _⟩ => outC (tiles m c t)
    | ⟨19, _⟩ => outN (tiles m c t)
    | ⟨20, _⟩ => outM (tiles m c t)
    | ⟨_ + 21, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = outH (tiles m c t) := by dsimp only [dats]
theorem after18 (c : Dev nD) (t : Fin cfg0.N) : (dats m 0 c).after 18 t = outC (tiles m c t) := by dsimp only [dats]
theorem after19 (c : Dev nD) (t : Fin cfg0.N) : (dats m 0 c).after 19 t = outN (tiles m c t) := by dsimp only [dats]
theorem after20 (c : Dev nD) (t : Fin cfg0.N) : (dats m 0 c).after 20 t = outM (tiles m c t) := by dsimp only [dats]

/-- Each input's current buffer holds its block at every point. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t))

set_option maxHeartbeats 2000000 in
/-- The body at any point: the inputs' buffers hold their blocks, so the body's triple applies; the invariant and the
    core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel c Set.univ (grid0.coords t) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and in every final state every array of the pipeline holds what
    the proof data say and every other unscoped buffer what the stacking operations leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := suffix_sub) (hfresh := suffix_fresh') (hkeep := suffix_keeps)
    (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Fr

end
-- ==== Proof.RefSide.lean ====
/-
  The reference's result at the extended reals, entry by entry, is the cell's formula (Cell.lean) of its seventeen
  arguments: the wide products over the four weight matrices laid side by side, read at column g * 2048 + j, are
  gate g's products at column j.
-/
import proofs.«128341_j21380347199691_1_alg».proof.Proof.Cell
import proofs.«128341_j21380347199691_1_alg».proof.Proof.Gen.ReferenceIdeal.Run
import proofs.«128341_j21380347199691_1_alg».proof.Proof.Gen.ReferenceIdeal.Read
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.RefCell

open Idealize.ShloMosaic Idealize.ShloMosaic.TcCoe Idealize.ShloMosaic.ValueIdx Idealize.SL.Sem Cert.ReferenceIdeal Cert.Cell

/-- The reference's argument arrays on device `c`, as the cell's arguments. -/
def args (m : (ℓ : Loc nD τ sig) → Buf (Elt Ideal) ℓ) (c : Dev nD) : Cert.Cell.Args where
  x := m ((c.tc : Thread nD τ).loc main_arg0)
  h := m ((c.tc : Thread nD τ).loc main_arg1)
  c := m ((c.tc : Thread nD τ).loc main_arg2)
  n := m ((c.tc : Thread nD τ).loc main_arg3)
  m := m ((c.tc : Thread nD τ).loc main_arg4)
  Wz := m ((c.tc : Thread nD τ).loc main_arg5)
  Wi := m ((c.tc : Thread nD τ).loc main_arg6)
  Wf := m ((c.tc : Thread nD τ).loc main_arg7)
  Wo := m ((c.tc : Thread nD τ).loc main_arg8)
  bz := m ((c.tc : Thread nD τ).loc main_arg9)
  bi := m ((c.tc : Thread nD τ).loc main_arg10)
  bf := m ((c.tc : Thread nD τ).loc main_arg11)
  bo := m ((c.tc : Thread nD τ).loc main_arg12)
  Uz := m ((c.tc : Thread nD τ).loc main_arg13)
  Ui := m ((c.tc : Thread nD τ).loc main_arg14)
  Uf := m ((c.tc : Thread nD τ).loc main_arg15)
  Uo := m ((c.tc : Thread nD τ).loc main_arg16)

open Cert.ReferenceIdeal.Read Cert.ReferenceIdeal.Gen

/-- Four [2048, 2048] matrices laid side by side along the columns, read at row k and column 0 + j: matrix 0 at (k, j). -/
theorem cat_col0 (W0 W1 W2 W3 : Cert.Cell.Wt) (k : Fin 2048) (j : Fin 2048) (col : Fin 8192)
    (hcol : col.val = 0 + j.val) :
    concatenate S2048x8192 1 [⟨S2048x2048, W0⟩, ⟨S2048x2048, W1⟩, ⟨S2048x2048, W2⟩, ⟨S2048x2048, W3⟩]
      concatenates_S2048x2048_S2048x2048_S2048x2048_S2048x2048_S2048x8192_d1 (ix2 k col)
      = W0 (ix2 k j) := by
  refine concatenate_apply_piece (t := S2048x8192) 1 _ _ (ix2 k col) 0 (by show (0 : Nat) < 4; omega) S2048x2048 W0 rfl rfl 0 rfl (ix2 k j) ?_ ?_
  · intro b hb
    match b with
    | ⟨0, _⟩ => rfl
    | ⟨1, _⟩ => exact absurd rfl hb
  · show 0 + j.val = col.val
    omega

/-- Four [2048, 2048] matrices laid side by side along the columns, read at row k and column 2048 + j: matrix 1 at (k, j). -/
theorem cat_col1 (W0 W1 W2 W3 : Cert.Cell.Wt) (k : Fin 2048) (j : Fin 2048) (col : Fin 8192)
    (hcol : col.val = 2048 + j.val) :
    concatenate S2048x8192 1 [⟨S2048x2048, W0⟩, ⟨S2048x2048, W1⟩, ⟨S2048x2048, W2⟩, ⟨S2048x2048, W3⟩]
      concatenates_S2048x2048_S2048x2048_S2048x2048_S2048x2048_S2048x8192_d1 (ix2 k col)
      = W1 (ix2 k j) := by
  refine concatenate_apply_piece (t := S2048x8192) 1 _ _ (ix2 k col) 1 (by show (1 : Nat) < 4; omega) S2048x2048 W1 rfl rfl 2048 rfl (ix2 k j) ?_ ?_
  · intro b hb
    match b with
    | ⟨0, _⟩ => rfl
    | ⟨1, _⟩ => exact absurd rfl hb
  · show 2048 + j.val = col.val
    omega

/-- Four [2048, 2048] matrices laid side by side along the columns, read at row k and column 4096 + j: matrix 2 at (k, j). -/
theorem cat_col2 (W0 W1 W2 W3 : Cert.Cell.Wt) (k : Fin 2048) (j : Fin 2048) (col : Fin 8192)
    (hcol : col.val = 4096 + j.val) :
    concatenate S2048x8192 1 [⟨S2048x2048, W0⟩, ⟨S2048x2048, W1⟩, ⟨S2048x2048, W2⟩, ⟨S2048x2048, W3⟩]
      concatenates_S2048x2048_S2048x2048_S2048x2048_S2048x2048_S2048x8192_d1 (ix2 k col)
      = W2 (ix2 k j) := by
  refine concatenate_apply_piece (t := S2048x8192) 1 _ _ (ix2 k col) 2 (by show (2 : Nat) < 4; omega) S2048x2048 W2 rfl rfl 4096 rfl (ix2 k j) ?_ ?_
  · intro b hb
    match b with
    | ⟨0, _⟩ => rfl
    | ⟨1, _⟩ => exact absurd rfl hb
  · show 4096 + j.val = col.val
    omega

/-- Four [2048, 2048] matrices laid side by side along the columns, read at row k and column 6144 + j: matrix 3 at (k, j). -/
theorem cat_col3 (W0 W1 W2 W3 : Cert.Cell.Wt) (k : Fin 2048) (j : Fin 2048) (col : Fin 8192)
    (hcol : col.val = 6144 + j.val) :
    concatenate S2048x8192 1 [⟨S2048x2048, W0⟩, ⟨S2048x2048, W1⟩, ⟨S2048x2048, W2⟩, ⟨S2048x2048, W3⟩]
      concatenates_S2048x2048_S2048x2048_S2048x2048_S2048x2048_S2048x8192_d1 (ix2 k col)
      = W3 (ix2 k j) := by
  refine concatenate_apply_piece (t := S2048x8192) 1 _ _ (ix2 k col) 3 (by show (3 : Nat) < 4; omega) S2048x2048 W3 rfl rfl 6144 rfl (ix2 k j) ?_ ?_
  · intro b hb
    match b with
    | ⟨0, _⟩ => rfl
    | ⟨1, _⟩ => exact absurd rfl hb
  · show 6144 + j.val = col.val
    omega

/-- Four [2048] vectors laid end to end, read at position 0 + j: vector 0 at j. -/
theorem cat_bias0 (β0 β1 β2 β3 : Cert.Cell.Bs) (j : Fin 2048) (col : Fin 8192)
    (hcol : col.val = 0 + j.val) :
    concatenate S8192 0 [⟨S2048, β0⟩, ⟨S2048, β1⟩, ⟨S2048, β2⟩, ⟨S2048, β3⟩]
      concatenates_S2048_S2048_S2048_S2048_S8192_d0 (ix1 col)
      = β0 (ix1 j) := by
  refine concatenate_apply_piece (t := S8192) 0 _ _ (ix1 col) 0 (by show (0 : Nat) < 4; omega) S2048 β0 rfl rfl 0 rfl (ix1 j) ?_ ?_
  · intro b hb
    match b with
    | ⟨0, _⟩ => exact absurd rfl hb
  · show 0 + j.val = col.val
    omega

/-- Four [2048] vectors laid end to end, read at position 2048 + j: vector 1 at j. -/
theorem cat_bias1 (β0 β1 β2 β3 : Cert.Cell.Bs) (j : Fin 2048) (col : Fin 8192)
    (hcol : col.val = 2048 + j.val) :
    concatenate S8192 0 [⟨S2048, β0⟩, ⟨S2048, β1⟩, ⟨S2048, β2⟩, ⟨S2048, β3⟩]
      concatenates_S2048_S2048_S2048_S2048_S8192_d0 (ix1 col)
      = β1 (ix1 j) := by
  refine concatenate_apply_piece (t := S8192) 0 _ _ (ix1 col) 1 (by show (1 : Nat) < 4; omega) S2048 β1 rfl rfl 2048 rfl (ix1 j) ?_ ?_
  · intro b hb
    match b with
    | ⟨0, _⟩ => exact absurd rfl hb
  · show 2048 + j.val = col.val
    omega

/-- Four [2048] vectors laid end to end, read at position 4096 + j: vector 2 at j. -/
theorem cat_bias2 (β0 β1 β2 β3 : Cert.Cell.Bs) (j : Fin 2048) (col : Fin 8192)
    (hcol : col.val = 4096 + j.val) :
    concatenate S8192 0 [⟨S2048, β0⟩, ⟨S2048, β1⟩, ⟨S2048, β2⟩, ⟨S2048, β3⟩]
      concatenates_S2048_S2048_S2048_S2048_S8192_d0 (ix1 col)
      = β2 (ix1 j) := by
  refine concatenate_apply_piece (t := S8192) 0 _ _ (ix1 col) 2 (by show (2 : Nat) < 4; omega) S2048 β2 rfl rfl 4096 rfl (ix1 j) ?_ ?_
  · intro b hb
    match b with
    | ⟨0, _⟩ => exact absurd rfl hb
  · show 4096 + j.val = col.val
    omega

/-- Four [2048] vectors laid end to end, read at position 6144 + j: vector 3 at j. -/
theorem cat_bias3 (β0 β1 β2 β3 : Cert.Cell.Bs) (j : Fin 2048) (col : Fin 8192)
    (hcol : col.val = 6144 + j.val) :
    concatenate S8192 0 [⟨S2048, β0⟩, ⟨S2048, β1⟩, ⟨S2048, β2⟩, ⟨S2048, β3⟩]
      concatenates_S2048_S2048_S2048_S2048_S8192_d0 (ix1 col)
      = β3 (ix1 j) := by
  refine concatenate_apply_piece (t := S8192) 0 _ _ (ix1 col) 3 (by show (3 : Nat) < 4; omega) S2048 β3 rfl rfl 6144 rfl (ix1 j) ?_ ?_
  · intro b hb
    match b with
    | ⟨0, _⟩ => exact absurd rfl hb
  · show 6144 + j.val = col.val
    omega

/-- The pre-activation array at row b and a column col: if the joined weights and bias at col are the gate's own at
    unit j, the entry is the gate's pre-activation. -/
theorem pre_gate (x0 x1 : St) (x5 x6 x7 x8 : Wt) (x9 x10 x11 x12 : Bs) (x13 x14 x15 x16 : Wt)
    (W U : Wt) (β : Bs) (b : Fin 256) (j : Fin 2048) (col : Fin 8192)
    (hW : ∀ k : Fin 2048, val_main_v0 (F := Ideal) x5 x6 x7 x8 (ix2 k col) = W (ix2 k j))
    (hU : ∀ k : Fin 2048, val_main_v1 (F := Ideal) x13 x14 x15 x16 (ix2 k col) = U (ix2 k j))
    (hβ : val_main_v2 (F := Ideal) x9 x10 x11 x12 (ix1 col) = β (ix1 j)) :
    val_main_v8 (F := Ideal) x0 x1 x5 x6 x7 x8 x9 x10 x11 x12 x13 x14 x15 x16 (ix2 b col) = gate x0 x1 W U β b j := by
  rw [val_main_v8_apply, val_main_v5_apply, val_main_v3_apply, val_main_v4_apply, val_main_v7_apply, val_main_v6_apply]
  have e1 : ∀ k : Fin 2048, lidx_main_v3 (ix2 b col) k = ix2 b k := fun k => funext fun a => Fin.ext (by
    match a with
    | ⟨0, _⟩ => rfl
    | ⟨1, _⟩ => rfl)
  have e2 : ∀ k : Fin 2048, ridx_main_v3 (ix2 b col) k = ix2 k col := fun k => funext fun a => Fin.ext (by
    match a with
    | ⟨0, _⟩ => rfl
    | ⟨1, _⟩ => rfl)
  have e1' : ∀ k : Fin 2048, lidx_main_v4 (ix2 b col) k = ix2 b k := fun k => funext fun a => Fin.ext (by
    match a with
    | ⟨0, _⟩ => rfl
    | ⟨1, _⟩ => rfl)
  have e2' : ∀ k : Fin 2048, ridx_main_v4 (ix2 b col) k = ix2 k col := fun k => funext fun a => Fin.ext (by
    match a with
    | ⟨0, _⟩ => rfl
    | ⟨1, _⟩ => rfl)
  have e3 : idx_main_v6 (idx_main_v7 (ix2 b col)) = ix1 col := funext fun a => Fin.ext (by
    match a with
    | ⟨0, _⟩ => rfl)
  simp only [e1, e2, e1', e2', e3, hW, hU, hβ, Ideal.addf_def]
  rfl

/-- Slice 0 of the pre-activation array (columns 0 onwards) is gate z's pre-activation. -/
theorem pre_z (x0 x1 : St) (x5 x6 x7 x8 : Wt) (x9 x10 x11 x12 : Bs) (x13 x14 x15 x16 : Wt) (b : Fin 256) (j : Fin 2048) :
    val_main_v9 (F := Ideal) x0 x1 x5 x6 x7 x8 x9 x10 x11 x12 x13 x14 x15 x16 (ix2 b j) = gate x0 x1 x5 x13 x9 b j := by
  rw [val_main_v9_apply]
  have hj : 0 + j.val < 8192 := by have := j.isLt; omega
  have e : idx_main_v9 (ix2 b j) = ix2 b (⟨0 + j.val, hj⟩ : Fin 8192) := funext fun a => Fin.ext (by
    match a with
    | ⟨0, _⟩ => rfl
    | ⟨1, _⟩ => show j.val = 0 + j.val; omega)
  rw [e]
  exact pre_gate x0 x1 x5 x6 x7 x8 x9 x10 x11 x12 x13 x14 x15 x16 x5 x13 x9 b j _
    (fun k => cat_col0 x5 x6 x7 x8 k j _ rfl) (fun k => cat_col0 x13 x14 x15 x16 k j _ rfl) (cat_bias0 x9 x10 x11 x12 j _ rfl)

/-- Slice 1 of the pre-activation array (columns 2048 onwards) is gate i's pre-activation. -/
theorem pre_i (x0 x1 : St) (x5 x6 x7 x8 : Wt) (x9 x10 x11 x12 : Bs) (x13 x14 x15 x16 : Wt) (b : Fin 256) (j : Fin 2048) :
    val_main_v10 (F := Ideal) x0 x1 x5 x6 x7 x8 x9 x10 x11 x12 x13 x14 x15 x16 (ix2 b j) = gate x0 x1 x6 x14 x10 b j := by
  rw [val_main_v10_apply]
  have hj : 2048 + j.val < 8192 := by have := j.isLt; omega
  have e : idx_main_v10 (ix2 b j) = ix2 b (⟨2048 + j.val, hj⟩ : Fin 8192) := funext fun a => Fin.ext (by
    match a with
    | ⟨0, _⟩ => rfl
    | ⟨1, _⟩ => rfl)
  rw [e]
  exact pre_gate x0 x1 x5 x6 x7 x8 x9 x10 x11 x12 x13 x14 x15 x16 x6 x14 x10 b j _
    (fun k => cat_col1 x5 x6 x7 x8 k j _ rfl) (fun k => cat_col1 x13 x14 x15 x16 k j _ rfl) (cat_bias1 x9 x10 x11 x12 j _ rfl)

/-- Slice 2 of the pre-activation array (columns 4096 onwards) is gate f's pre-activation. -/
theorem pre_f (x0 x1 : St) (x5 x6 x7 x8 : Wt) (x9 x10 x11 x12 : Bs) (x13 x14 x15 x16 : Wt) (b : Fin 256) (j : Fin 2048) :
    val_main_v11 (F := Ideal) x0 x1 x5 x6 x7 x8 x9 x10 x11 x12 x13 x14 x15 x16 (ix2 b j) = gate x0 x1 x7 x15 x11 b j := by
  rw [val_main_v11_apply]
  have hj : 4096 + j.val < 8192 := by have := j.isLt; omega
  have e : idx_main_v11 (ix2 b j) = ix2 b (⟨4096 + j.val, hj⟩ : Fin 8192) := funext fun a => Fin.ext (by
    match a with
    | ⟨0, _⟩ => rfl
    | ⟨1, _⟩ => rfl)
  rw [e]
  exact pre_gate x0 x1 x5 x6 x7 x8 x9 x10 x11 x12 x13 x14 x15 x16 x7 x15 x11 b j _
    (fun k => cat_col2 x5 x6 x7 x8 k j _ rfl) (fun k => cat_col2 x13 x14 x15 x16 k j _ rfl) (cat_bias2 x9 x10 x11 x12 j _ rfl)

/-- Slice 3 of the pre-activation array (columns 6144 onwards) is gate o's pre-activation. -/
theorem pre_o (x0 x1 : St) (x5 x6 x7 x8 : Wt) (x9 x10 x11 x12 : Bs) (x13 x14 x15 x16 : Wt) (b : Fin 256) (j : Fin 2048) :
    val_main_v12 (F := Ideal) x0 x1 x5 x6 x7 x8 x9 x10 x11 x12 x13 x14 x15 x16 (ix2 b j) = gate x0 x1 x8 x16 x12 b j := by
  rw [val_main_v12_apply]
  have hj : 6144 + j.val < 8192 := by have := j.isLt; omega
  have e : idx_main_v12 (ix2 b j) = ix2 b (⟨6144 + j.val, hj⟩ : Fin 8192) := funext fun a => Fin.ext (by
    match a with
    | ⟨0, _⟩ => rfl
    | ⟨1, _⟩ => rfl)
  rw [e]
  exact pre_gate x0 x1 x5 x6 x7 x8 x9 x10 x11 x12 x13 x14 x15 x16 x8 x16 x12 b j _
    (fun k => cat_col3 x5 x6 x7 x8 k j _ rfl) (fun k => cat_col3 x13 x14 x15 x16 k j _ rfl) (cat_bias3 x9 x10 x11 x12 j _ rfl)

/-- The new stabiliser. -/
theorem st_m (x0 x1 x4 : St) (x5 x6 x7 x8 : Wt) (x9 x10 x11 x12 : Bs) (x13 x14 x15 x16 : Wt) (b : Fin 256) (j : Fin 2048) :
    val_main_v14 (F := Ideal) x0 x1 x4 x5 x6 x7 x8 x9 x10 x11 x12 x13 x14 x15 x16 (ix2 b j) = mNext (gate x0 x1 x6 x14 x10 b j) (x4 (ix2 b j)) := by
  rw [val_main_v14_apply, val_main_v13_apply, pre_i]
  simp only [Ideal.maximumf_def, Ideal.addf_def]
  rfl

/-- The stabilised input activation. -/
theorem st_i (x0 x1 x4 : St) (x5 x6 x7 x8 : Wt) (x9 x10 x11 x12 : Bs) (x13 x14 x15 x16 : Wt) (b : Fin 256) (j : Fin 2048) :
    val_main_v16 (F := Ideal) x0 x1 x4 x5 x6 x7 x8 x9 x10 x11 x12 x13 x14 x15 x16 (ix2 b j) = iAct (gate x0 x1 x6 x14 x10 b j) (x4 (ix2 b j)) := by
  rw [val_main_v16_apply, val_main_v15_apply, st_m, pre_i]
  simp only [Ideal.hostUnary_exp_def, Ideal.subf_def]
  rfl

/-- The stabilised forget activation. -/
theorem st_f (x0 x1 x4 : St) (x5 x6 x7 x8 : Wt) (x9 x10 x11 x12 : Bs) (x13 x14 x15 x16 : Wt) (b : Fin 256) (j : Fin 2048) :
    val_main_v19 (F := Ideal) x0 x1 x4 x5 x6 x7 x8 x9 x10 x11 x12 x13 x14 x15 x16 (ix2 b j) = fAct (gate x0 x1 x7 x15 x11 b j) (gate x0 x1 x6 x14 x10 b j) (x4 (ix2 b j)) := by
  rw [val_main_v19_apply, val_main_v18_apply, val_main_v17_apply, st_m, pre_f]
  simp only [Ideal.hostUnary_exp_def, Ideal.subf_def, Ideal.addf_def]
  rfl

/-- The new cell state. -/
theorem st_c (x0 x1 x2 x4 : St) (x5 x6 x7 x8 : Wt) (x9 x10 x11 x12 : Bs) (x13 x14 x15 x16 : Wt) (b : Fin 256) (j : Fin 2048) :
    val_main_v29 (F := Ideal) x0 x1 x2 x4 x5 x6 x7 x8 x9 x10 x11 x12 x13 x14 x15 x16 (ix2 b j)
      = cNext (gate x0 x1 x5 x13 x9 b j) (gate x0 x1 x6 x14 x10 b j) (gate x0 x1 x7 x15 x11 b j) (x4 (ix2 b j)) (x2 (ix2 b j)) := by
  rw [val_main_v29_apply, val_main_v27_apply, val_main_v28_apply, val_main_v26_apply, st_f, st_i, pre_z]
  simp only [Ideal.hostUnary_tanh_def, Ideal.mulf_def, Ideal.addf_def]
  rfl

/-- The new normaliser state. -/
theorem st_n (x0 x1 x3 x4 : St) (x5 x6 x7 x8 : Wt) (x9 x10 x11 x12 : Bs) (x13 x14 x15 x16 : Wt) (b : Fin 256) (j : Fin 2048) :
    val_main_v31 (F := Ideal) x0 x1 x3 x4 x5 x6 x7 x8 x9 x10 x11 x12 x13 x14 x15 x16 (ix2 b j)
      = nNext (gate x0 x1 x6 x14 x10 b j) (gate x0 x1 x7 x15 x11 b j) (x4 (ix2 b j)) (x3 (ix2 b j)) := by
  rw [val_main_v31_apply, val_main_v30_apply, st_f, st_i]
  simp only [Ideal.mulf_def, Ideal.addf_def]
  rfl

/-- The new hidden state: the reference spells the logistic as 1 / (1 + exp (-x)). -/
theorem st_h (x0 x1 x2 x3 x4 : St) (x5 x6 x7 x8 : Wt) (x9 x10 x11 x12 : Bs) (x13 x14 x15 x16 : Wt) (b : Fin 256) (j : Fin 2048) :
    val_main_v35 (F := Ideal) x0 x1 x2 x3 x4 x5 x6 x7 x8 x9 x10 x11 x12 x13 x14 x15 x16 (ix2 b j)
      = hNext (gate x0 x1 x5 x13 x9 b j) (gate x0 x1 x6 x14 x10 b j) (gate x0 x1 x7 x15 x11 b j) (gate x0 x1 x8 x16 x12 b j) (x4 (ix2 b j)) (x2 (ix2 b j)) (x3 (ix2 b j)) := by
  rw [val_main_v35_apply, val_main_v25_apply, val_main_v24_apply, val_main_cst_0_apply, val_main_v23_apply, val_main_v22_apply,
    val_main_cst_apply, val_main_v21_apply, val_main_v20_apply, pre_o, val_main_v34_apply, st_c, val_main_v33_apply, st_n,
    val_main_v32_apply, val_main_cst_1_apply]
  simp only [Ideal.hostUnary_exp_def, Ideal.hostNegf_def, Ideal.negf_def, Ideal.hostDivf_def, Ideal.mulf_def, Ideal.addf_def,
    Ideal.ofBits_def, Idealize.ShloMosaic.Ideal.ofBits_one_f32]
  rfl

/-- Four [1, 256, 2048] planes stacked along the leading axis, read at plane 0: plane 0 at (0, b, j). -/
theorem cat_plane0 (P0 P1 P2 P3 : S1x256x2048.Idx → EReal) (g : Fin 4) (hg : g.val = 0) (b : Fin 256) (j : Fin 2048) :
    concatenate S4x256x2048 0 [⟨S1x256x2048, P0⟩, ⟨S1x256x2048, P1⟩, ⟨S1x256x2048, P2⟩, ⟨S1x256x2048, P3⟩]
      concatenates_S1x256x2048_S1x256x2048_S1x256x2048_S1x256x2048_S4x256x2048_d0 (ix3 g b j)
      = P0 (ix3 (0 : Fin 1) b j) := by
  refine concatenate_apply_piece (t := S4x256x2048) 0 _ _ (ix3 g b j) 0 (by show (0 : Nat) < 4; omega) S1x256x2048 P0 rfl rfl 0 rfl (ix3 (0 : Fin 1) b j) ?_ ?_
  · intro a ha
    match a with
    | ⟨0, _⟩ => exact absurd rfl ha
    | ⟨1, _⟩ => rfl
    | ⟨2, _⟩ => rfl
  · show 0 + 0 = g.val
    omega

/-- Four [1, 256, 2048] planes stacked along the leading axis, read at plane 1: plane 1 at (0, b, j). -/
theorem cat_plane1 (P0 P1 P2 P3 : S1x256x2048.Idx → EReal) (g : Fin 4) (hg : g.val = 1) (b : Fin 256) (j : Fin 2048) :
    concatenate S4x256x2048 0 [⟨S1x256x2048, P0⟩, ⟨S1x256x2048, P1⟩, ⟨S1x256x2048, P2⟩, ⟨S1x256x2048, P3⟩]
      concatenates_S1x256x2048_S1x256x2048_S1x256x2048_S1x256x2048_S4x256x2048_d0 (ix3 g b j)
      = P1 (ix3 (0 : Fin 1) b j) := by
  refine concatenate_apply_piece (t := S4x256x2048) 0 _ _ (ix3 g b j) 1 (by show (1 : Nat) < 4; omega) S1x256x2048 P1 rfl rfl 1 rfl (ix3 (0 : Fin 1) b j) ?_ ?_
  · intro a ha
    match a with
    | ⟨0, _⟩ => exact absurd rfl ha
    | ⟨1, _⟩ => rfl
    | ⟨2, _⟩ => rfl
  · show 1 + 0 = g.val
    omega

/-- Four [1, 256, 2048] planes stacked along the leading axis, read at plane 2: plane 2 at (0, b, j). -/
theorem cat_plane2 (P0 P1 P2 P3 : S1x256x2048.Idx → EReal) (g : Fin 4) (hg : g.val = 2) (b : Fin 256) (j : Fin 2048) :
    concatenate S4x256x2048 0 [⟨S1x256x2048, P0⟩, ⟨S1x256x2048, P1⟩, ⟨S1x256x2048, P2⟩, ⟨S1x256x2048, P3⟩]
      concatenates_S1x256x2048_S1x256x2048_S1x256x2048_S1x256x2048_S4x256x2048_d0 (ix3 g b j)
      = P2 (ix3 (0 : Fin 1) b j) := by
  refine concatenate_apply_piece (t := S4x256x2048) 0 _ _ (ix3 g b j) 2 (by show (2 : Nat) < 4; omega) S1x256x2048 P2 rfl rfl 2 rfl (ix3 (0 : Fin 1) b j) ?_ ?_
  · intro a ha
    match a with
    | ⟨0, _⟩ => exact absurd rfl ha
    | ⟨1, _⟩ => rfl
    | ⟨2, _⟩ => rfl
  · show 2 + 0 = g.val
    omega

/-- Four [1, 256, 2048] planes stacked along the leading axis, read at plane 3: plane 3 at (0, b, j). -/
theorem cat_plane3 (P0 P1 P2 P3 : S1x256x2048.Idx → EReal) (g : Fin 4) (hg : g.val = 3) (b : Fin 256) (j : Fin 2048) :
    concatenate S4x256x2048 0 [⟨S1x256x2048, P0⟩, ⟨S1x256x2048, P1⟩, ⟨S1x256x2048, P2⟩, ⟨S1x256x2048, P3⟩]
      concatenates_S1x256x2048_S1x256x2048_S1x256x2048_S1x256x2048_S4x256x2048_d0 (ix3 g b j)
      = P3 (ix3 (0 : Fin 1) b j) := by
  refine concatenate_apply_piece (t := S4x256x2048) 0 _ _ (ix3 g b j) 3 (by show (3 : Nat) < 4; omega) S1x256x2048 P3 rfl rfl 3 rfl (ix3 (0 : Fin 1) b j) ?_ ?_
  · intro a ha
    match a with
    | ⟨0, _⟩ => exact absurd rfl ha
    | ⟨1, _⟩ => rfl
    | ⟨2, _⟩ => rfl
  · show 3 + 0 = g.val
    omega

/-- A [256, 2048] array given a leading axis of extent one, read at (0, b, j). -/
theorem lead_idx (b : Fin 256) (j : Fin 2048) : idx_main_v36 (ix3 (0 : Fin 1) b j) = ix2 b j := funext fun a => Fin.ext (by
  match a with
  | ⟨0, _⟩ => rfl
  | ⟨1, _⟩ => rfl)

/-- The reference run's result array, read at plane `g`, row `b`, unit `j`. -/
theorem ref_out (m : (ℓ : Loc nD τ sig) → Buf (Elt Ideal) ℓ) (c : Dev nD) (g : Fin 4) (b : Fin 256) (j : Fin 2048) :
    (Cert.ReferenceIdeal.Value.res_out0 (F := Ideal) m c : S4x256x2048.Idx → EReal) (ix3 g b j) = Cert.Cell.out (args m c) g b j := by
  show (Cert.ReferenceIdeal.Value.res_main_v40 (F := Ideal) m c : S4x256x2048.Idx → EReal) (ix3 g b j) = _
  rw [val_main_v40_eq]
  unfold val_main_v40
  match g with
  | ⟨0, hg⟩ =>
    rw [cat_plane0 _ _ _ _ _ rfl, val_main_v36_apply, lead_idx, st_h]
    rfl
  | ⟨1, hg⟩ =>
    rw [cat_plane1 _ _ _ _ _ rfl, val_main_v37_apply]
    rw [show idx_main_v37 (ix3 (0 : Fin 1) b j) = ix2 b j from lead_idx b j, st_c]
    rfl
  | ⟨2, hg⟩ =>
    rw [cat_plane2 _ _ _ _ _ rfl, val_main_v38_apply]
    rw [show idx_main_v38 (ix3 (0 : Fin 1) b j) = ix2 b j from lead_idx b j, st_n]
    rfl
  | ⟨3, hg⟩ =>
    rw [cat_plane3 _ _ _ _ _ rfl, val_main_v39_apply]
    rw [show idx_main_v39 (ix3 (0 : Fin 1) b j) = ix2 b j from lead_idx b j, st_m]
    rfl

end Cert.RefCell

end
-- ==== Proof.TileValI.lean ====
/-
  The kernel's four output tiles at the extended reals, entry by entry: each is the cell's formula
  (Cell.lean) at the gate pre-activations computed from the tile's columns of the weights.
-/
import proofs.«128341_j21380347199691_1_alg».proof.Proof.Cell
import proofs.«128341_j21380347199691_1_alg».proof.Proof.TileI
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileVal

open Idealize.ShloMosaic Idealize.ShloMosaic.ValueIdx Cert.KernelIdeal Cert.KernelIdeal.Gen Cert.KernelIdeal.Tile Cert.Cell

/-! ## The product of a [256, 2048] array with a [2048, 128] tile, at an entry -/

/-- The left operand is read at the output's row … -/
theorem lhs_ax0 (i : S256x128.Idx) (q : dot_S256x2048_S2048x128_S256x128_1_0_0_1_n_n.contr.Idx) :
    (dot_S256x2048_S2048x128_S256x128_1_0_0_1_n_n.lhsIdx i q 0).val = (i 0).val := by
  unfold DotDims.lhsIdx
  rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
  rfl
/-- … and at the contracted coordinate; -/
theorem lhs_ax1 (i : S256x128.Idx) (q : dot_S256x2048_S2048x128_S256x128_1_0_0_1_n_n.contr.Idx) :
    (dot_S256x2048_S2048x128_S256x128_1_0_0_1_n_n.lhsIdx i q 1).val = (q ⟨0, by decide⟩).val :=
  dot_S256x2048_S2048x128_S256x128_1_0_0_1_n_n.lhsIdx_val_of_single rfl i q
/-- the right operand is read at the contracted coordinate … -/
theorem rhs_ax0 (i : S256x128.Idx) (q : dot_S256x2048_S2048x128_S256x128_1_0_0_1_n_n.contr.Idx) :
    (dot_S256x2048_S2048x128_S256x128_1_0_0_1_n_n.rhsIdx i q 0).val = (q ⟨0, by decide⟩).val :=
  dot_S256x2048_S2048x128_S256x128_1_0_0_1_n_n.rhsIdx_val_of_single rfl i q
/-- … and at the output's column. -/
theorem rhs_ax1 (i : S256x128.Idx) (q : dot_S256x2048_S2048x128_S256x128_1_0_0_1_n_n.contr.Idx) :
    (dot_S256x2048_S2048x128_S256x128_1_0_0_1_n_n.rhsIdx i q 1).val = (i 1).val := by
  unfold DotDims.rhsIdx
  rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
  rfl

/-- The product into a zero accumulator, at row `p` and column `q`, is the sum over the 2048 contracted coordinates. -/
theorem matmul_zero_apply (lhs : FVec Ideal S256x2048 .bf16) (rhs : FVec Ideal S2048x128 .bf16) (p : Fin 256) (q : Fin 128) :
    matmul (F := Ideal) dot_S256x2048_S2048x128_S256x128_1_0_0_1_n_n none lhs rhs (constant (F := Ideal) S256x128 .f32 0x00000000#32) (ix2 p q)
      = ∑ k : Fin 2048, lhs (ix2 p k) * rhs (ix2 k q) := by
  refine (Ideal.matmul_constant_zero_apply dot_S256x2048_S2048x128_S256x128_1_0_0_1_n_n none lhs rhs (ix2 p q)).trans ?_
  rw [← Equiv.sum_comp (contrEquiv1 dot_S256x2048_S2048x128_S256x128_1_0_0_1_n_n 2048 rfl rfl).symm]
  refine Finset.sum_congr rfl fun k _ => ?_
  have hk := contrEquiv1_symm_val dot_S256x2048_S2048x128_S256x128_1_0_0_1_n_n 2048 rfl rfl k
  have el : dot_S256x2048_S2048x128_S256x128_1_0_0_1_n_n.lhsIdx (ix2 p q) ((contrEquiv1 dot_S256x2048_S2048x128_S256x128_1_0_0_1_n_n 2048 rfl rfl).symm k) = ix2 p k := funext fun a => Fin.ext (by
    match a with
    | ⟨0, _⟩ => exact lhs_ax0 _ _
    | ⟨1, _⟩ => exact (lhs_ax1 _ _).trans hk)
  have er : dot_S256x2048_S2048x128_S256x128_1_0_0_1_n_n.rhsIdx (ix2 p q) ((contrEquiv1 dot_S256x2048_S2048x128_S256x128_1_0_0_1_n_n 2048 rfl rfl).symm k) = ix2 k q := funext fun a => Fin.ext (by
    match a with
    | ⟨0, _⟩ => exact (rhs_ax0 _ _).trans hk
    | ⟨1, _⟩ => exact rhs_ax1 _ _)
  rw [el, er]

/-! ## One gate's pre-activation tile -/

/-- The term every gate shares — the two products into zero accumulators, added, plus the bias row broadcast over the
    256 rows — read at row `p`, column `q`, is the tile pre-activation of the two left operands. -/
theorem gate_apply (xb hb : FVec Ideal S256x2048 .bf16) (w u' : Vec Ideal S2048x128 .f32) (β : Vec Ideal S1x128 .f32)
    (p : Fin 256) (q : Fin 128) :
    addf (F := Ideal)
      (addf (F := Ideal)
        (matmul (F := Ideal) dot_S256x2048_S2048x128_S256x128_1_0_0_1_n_n none xb (truncf (F := Ideal) .bf16 w bitsLt_bf16_f32) (constant (F := Ideal) S256x128 .f32 0x00000000#32))
        (matmul (F := Ideal) dot_S256x2048_S2048x128_S256x128_1_0_0_1_n_n none hb (truncf (F := Ideal) .bf16 u' bitsLt_bf16_f32) (constant (F := Ideal) S256x128 .f32 0x00000000#32)))
      (broadcastTo S256x128 (shapeCast S1x128 β shapeCasts_S1x128_S1x128) broadcasts_S1x128_S256x128) (ix2 p q)
      = gateT xb hb w u' β p q := by
  rw [addf_apply, addf_apply, matmul_zero_apply, matmul_zero_apply, shapeCast_self, broadcastTo_1b_ab_apply]
  rfl

/-- The input gate's pre-activation payload is the tile pre-activation. -/
theorem pre_apply (x h : Vec Ideal S256x2048 .f32) (w u' : Vec Ideal S2048x128 .f32) (β : Vec Ideal S1x128 .f32)
    (p : Fin 256) (q : Fin 128) : k0_pay3 x h w u' β (ix2 p q) = gateT x h w u' β p q := by
  unfold k0_pay3
  exact gate_apply (k0_pay1 x) (k0_pay2 h) w u' β p q

/-! ## The payloads at an entry -/

/-- The new stabiliser. -/
theorem pay4_apply (x h : Vec Ideal S256x2048 .f32) (m : Vec Ideal S256x128 .f32) (w u' : Vec Ideal S2048x128 .f32)
    (β : Vec Ideal S1x128 .f32) (p : Fin 256) (q : Fin 128) :
    k0_pay4 x h m w u' β (ix2 p q) = mNext (gateT x h w u' β p q) (m (ix2 p q)) := by
  unfold k0_pay4
  rw [maximumf_apply, addf_apply, pre_apply]
  rfl

/-- The stabilised input activation. -/
theorem pay5_apply (x h : Vec Ideal S256x2048 .f32) (m : Vec Ideal S256x128 .f32) (w u' : Vec Ideal S2048x128 .f32)
    (β : Vec Ideal S1x128 .f32) (p : Fin 256) (q : Fin 128) :
    k0_pay5 x h m w u' β (ix2 p q) = iAct (gateT x h w u' β p q) (m (ix2 p q)) := by
  unfold k0_pay5
  show FloatOps.exp (subf (F := Ideal) (k0_pay3 x h w u' β) (k0_pay4 x h m w u' β) (ix2 p q)) = _
  rw [subf_apply, pre_apply, pay4_apply, Ideal.exp_def]
  rfl

/-- The stabilised forget activation. -/
theorem pay6_apply (x h : Vec Ideal S256x2048 .f32) (m : Vec Ideal S256x128 .f32) (wi ui : Vec Ideal S2048x128 .f32)
    (bi : Vec Ideal S1x128 .f32) (wf uf : Vec Ideal S2048x128 .f32) (bf : Vec Ideal S1x128 .f32) (p : Fin 256) (q : Fin 128) :
    k0_pay6 x h m wi ui bi wf uf bf (ix2 p q)
      = fAct (gateT x h wf uf bf p q) (gateT x h wi ui bi p q) (m (ix2 p q)) := by
  unfold k0_pay6
  show FloatOps.exp (subf (F := Ideal) (addf (F := Ideal) _ m) (k0_pay4 x h m wi ui bi) (ix2 p q)) = _
  rw [subf_apply, addf_apply, gate_apply, pay4_apply, Ideal.exp_def]
  rfl

/-- The new cell state from the two activation tiles. -/
theorem pay7_apply (xb hb : FVec Ideal S256x2048 .bf16) (ia fa : FVec Ideal S256x128 .f32) (wz uz : Vec Ideal S2048x128 .f32)
    (bz : Vec Ideal S1x128 .f32) (c : Vec Ideal S256x128 .f32) (p : Fin 256) (q : Fin 128) :
    k0_pay7 xb hb ia fa wz uz bz c (ix2 p q)
      = fa (ix2 p q) * c (ix2 p q) + ia (ix2 p q) * Ideal.tanh (gateT xb hb wz uz bz p q) := by
  unfold k0_pay7
  rw [addf_apply, mulf_apply, mulf_apply]
  show _ + _ * FloatOps.tanh (addf (F := Ideal) _ _ (ix2 p q)) = _
  rw [gate_apply, Ideal.tanh_def]

/-- The new normaliser state from the two activation tiles. -/
theorem pay8_apply (ia fa : FVec Ideal S256x128 .f32) (n : Vec Ideal S256x128 .f32) (p : Fin 256) (q : Fin 128) :
    k0_pay8 ia fa n (ix2 p q) = fa (ix2 p q) * n (ix2 p q) + ia (ix2 p q) := by
  unfold k0_pay8
  rw [addf_apply, mulf_apply]

/-- The new hidden state from the two activation tiles. -/
theorem pay9_apply (xb hb : FVec Ideal S256x2048 .bf16) (ia fa : FVec Ideal S256x128 .f32) (wz uz : Vec Ideal S2048x128 .f32)
    (bz : Vec Ideal S1x128 .f32) (wo uo : Vec Ideal S2048x128 .f32) (bo : Vec Ideal S1x128 .f32)
    (c n : Vec Ideal S256x128 .f32) (p : Fin 256) (q : Fin 128) :
    k0_pay9 xb hb ia fa wz uz bz wo uo bo c n (ix2 p q)
      = Ideal.logistic (gateT xb hb wo uo bo p q)
          * Ideal.div (fa (ix2 p q) * c (ix2 p q) + ia (ix2 p q) * Ideal.tanh (gateT xb hb wz uz bz p q))
              (fa (ix2 p q) * n (ix2 p q) + ia (ix2 p q) + eps) := by
  unfold k0_pay9
  rw [mulf_apply, divf_apply, addf_apply, pay7_apply, pay8_apply, broadcast_apply]
  show FloatOps.logistic (addf (F := Ideal) _ _ (ix2 p q)) * _ = _
  rw [gate_apply, Ideal.logistic_def]
  rfl

/-! ## The four tiles -/

variable (u : Tile.In Ideal)

/-- The z, i, f, o pre-activations of the tile at row `p`, column `q`. -/
def ztT (p : Fin 256) (q : Fin 128) : EReal := gateT u.x u.h u.Wz u.Uz u.bz p q
def itT (p : Fin 256) (q : Fin 128) : EReal := gateT u.x u.h u.Wi u.Ui u.bi p q
def ftT (p : Fin 256) (q : Fin 128) : EReal := gateT u.x u.h u.Wf u.Uf u.bf p q
def otT (p : Fin 256) (q : Fin 128) : EReal := gateT u.x u.h u.Wo u.Uo u.bo p q

/-- The input activation tile. -/
theorem iTile_apply (p : Fin 256) (q : Fin 128) : iTile u (ix2 p q) = iAct (itT u p q) (u.m (ix2 p q)) :=
  pay5_apply u.x u.h u.m u.Wi u.Ui u.bi p q

/-- The forget activation tile. -/
theorem fTile_apply (p : Fin 256) (q : Fin 128) : fTile u (ix2 p q) = fAct (ftT u p q) (itT u p q) (u.m (ix2 p q)) :=
  pay6_apply u.x u.h u.m u.Wi u.Ui u.bi u.Wf u.Uf u.bf p q

/-- The stabiliser tile at an entry is the cell's new stabiliser. -/
theorem mTile_apply (p : Fin 256) (q : Fin 128) :
    mTile u (ix2 p q) = mNext (itT u p q) (u.m (ix2 p q)) :=
  pay4_apply u.x u.h u.m u.Wi u.Ui u.bi p q

/-- The cell-state tile at an entry is the cell's new cell state. -/
theorem cTile_apply (p : Fin 256) (q : Fin 128) :
    cTile u (ix2 p q) = cNext (ztT u p q) (itT u p q) (ftT u p q) (u.m (ix2 p q)) (u.c (ix2 p q)) := by
  unfold cTile
  rw [pay7_apply, iTile_apply, fTile_apply]
  rfl

/-- The normaliser tile at an entry is the cell's new normaliser state. -/
theorem nTile_apply (p : Fin 256) (q : Fin 128) :
    nTile u (ix2 p q) = nNext (itT u p q) (ftT u p q) (u.m (ix2 p q)) (u.n (ix2 p q)) := by
  unfold nTile
  rw [pay8_apply, iTile_apply, fTile_apply]
  rfl

/-- The hidden-state tile at an entry is the cell's new hidden state. -/
theorem hTile_apply (p : Fin 256) (q : Fin 128) :
    hTile u (ix2 p q) = hNext (ztT u p q) (itT u p q) (ftT u p q) (otT u p q) (u.m (ix2 p q)) (u.c (ix2 p q)) (u.n (ix2 p q)) := by
  unfold hTile
  rw [pay9_apply, iTile_apply, fTile_apply]
  rfl

end Cert.KernelIdeal.TileVal

end
-- ==== Proof.BlocksI.lean ====
/-
  The idealized kernel's results, entry by entry. Grid point t writes back, for each of the four outputs, the
  [256, 128] tile of columns 128 t .. 128 t + 127; the sixteen tiles cover the [256, 2048] array, and the tile's
  entry (p, q) is the cell's formula at row p, unit 128 t + q, because the t-th column tile of a weight matrix read at
  (k, q) is the matrix at (k, 128 t + q), the t-th tile of a bias row read at (0, q) is the bias at 128 t + q, and
  the two activation arrays are read whole. The stacking operations after the region then place the four arrays as
  planes 0 to 3 of the result.
-/
import proofs.«128341_j21380347199691_1_alg».proof.Proof.Cell
import proofs.«128341_j21380347199691_1_alg».proof.Proof.TileValI
import proofs.«128341_j21380347199691_1_alg».proof.Proof.FrameI
import proofs.«128341_j21380347199691_1_alg».proof.Proof.RefSide
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Fr Cert.Cell

variable (m : (ℓ : Loc nD τ sig) → Buf (Elt Ideal) ℓ)

/-- The kernel program's argument arrays on device `c`, as the cell's arguments. -/
def args (c : Dev nD) : Cert.Cell.Args where
  x := m ((c.tc : Thread nD τ).loc main_arg0)
  h := m ((c.tc : Thread nD τ).loc main_arg1)
  c := m ((c.tc : Thread nD τ).loc main_arg2)
  n := m ((c.tc : Thread nD τ).loc main_arg3)
  m := m ((c.tc : Thread nD τ).loc main_arg4)
  Wz := m ((c.tc : Thread nD τ).loc main_arg5)
  Wi := m ((c.tc : Thread nD τ).loc main_arg6)
  Wf := m ((c.tc : Thread nD τ).loc main_arg7)
  Wo := m ((c.tc : Thread nD τ).loc main_arg8)
  bz := m ((c.tc : Thread nD τ).loc main_arg9)
  bi := m ((c.tc : Thread nD τ).loc main_arg10)
  bf := m ((c.tc : Thread nD τ).loc main_arg11)
  bo := m ((c.tc : Thread nD τ).loc main_arg12)
  Uz := m ((c.tc : Thread nD τ).loc main_arg13)
  Ui := m ((c.tc : Thread nD τ).loc main_arg14)
  Uf := m ((c.tc : Thread nD τ).loc main_arg15)
  Uo := m ((c.tc : Thread nD τ).loc main_arg16)

/-! ## The index maps over the grid -/

/-- The two activation arrays are one block: every point reads block (0, 0). -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
/-- Every other window reads or writes, at point `t`, block (0, t): its t-th column tile. -/
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = t.val :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)
theorem idx8 : ∀ t : Fin cfg0.N, win0_8.index t (0 : Fin 2) = 0 ∧ win0_8.index t (1 : Fin 2) = t.val :=
  (by decide +kernel : ∀ t : Fin grid0.N, _)
theorem idx9 : ∀ t : Fin cfg0.N, win0_9.index t (0 : Fin 2) = 0 ∧ win0_9.index t (1 : Fin 2) = t.val :=
  (by decide +kernel : ∀ t : Fin grid0.N, _)
theorem idx10 : ∀ t : Fin cfg0.N, win0_10.index t (0 : Fin 2) = 0 ∧ win0_10.index t (1 : Fin 2) = t.val :=
  (by decide +kernel : ∀ t : Fin grid0.N, _)
theorem idx11 : ∀ t : Fin cfg0.N, win0_11.index t (0 : Fin 2) = 0 ∧ win0_11.index t (1 : Fin 2) = t.val :=
  (by decide +kernel : ∀ t : Fin grid0.N, _)
theorem idx12 : ∀ t : Fin cfg0.N, win0_12.index t (0 : Fin 2) = 0 ∧ win0_12.index t (1 : Fin 2) = t.val :=
  (by decide +kernel : ∀ t : Fin grid0.N, _)
theorem idx13 : ∀ t : Fin cfg0.N, win0_13.index t (0 : Fin 2) = 0 ∧ win0_13.index t (1 : Fin 2) = t.val :=
  (by decide +kernel : ∀ t : Fin grid0.N, _)
theorem idx14 : ∀ t : Fin cfg0.N, win0_14.index t (0 : Fin 2) = 0 ∧ win0_14.index t (1 : Fin 2) = t.val :=
  (by decide +kernel : ∀ t : Fin grid0.N, _)
theorem idx15 : ∀ t : Fin cfg0.N, win0_15.index t (0 : Fin 2) = 0 ∧ win0_15.index t (1 : Fin 2) = t.val :=
  (by decide +kernel : ∀ t : Fin grid0.N, _)
theorem idx16 : ∀ t : Fin cfg0.N, win0_16.index t (0 : Fin 2) = 0 ∧ win0_16.index t (1 : Fin 2) = t.val :=
  (by decide +kernel : ∀ t : Fin grid0.N, _)
theorem idx17 : ∀ t : Fin cfg0.N, win0_17.index t (0 : Fin 2) = 0 ∧ win0_17.index t (1 : Fin 2) = t.val :=
  (by decide +kernel : ∀ t : Fin grid0.N, _)
theorem idx18 : ∀ t : Fin cfg0.N, win0_18.index t (0 : Fin 2) = 0 ∧ win0_18.index t (1 : Fin 2) = t.val :=
  (by decide +kernel : ∀ t : Fin grid0.N, _)
theorem idx19 : ∀ t : Fin cfg0.N, win0_19.index t (0 : Fin 2) = 0 ∧ win0_19.index t (1 : Fin 2) = t.val :=
  (by decide +kernel : ∀ t : Fin grid0.N, _)
theorem idx20 : ∀ t : Fin cfg0.N, win0_20.index t (0 : Fin 2) = 0 ∧ win0_20.index t (1 : Fin 2) = t.val :=
  (by decide +kernel : ∀ t : Fin grid0.N, _)

/-- Column 128 t + q of a tile of point `t` is a column of the array. -/
theorem col_lt (t : Fin cfg0.N) (q : Fin 128) : 128 * t.val + q.val < 2048 := by
  have h1 : t.val < 16 := lt_of_lt_of_eq t.isLt N_0
  have h2 := q.isLt
  omega

/-! ## The input blocks as entries of the argument arrays -/

/-- The whole-array windows: the block is the array. -/
theorem iblk0_apply (c : Dev nD) (t : Fin cfg0.N) (p : Fin 256) (k : Fin 2048) :
    (iblk (F := Ideal) m c 0 t : Vec Ideal S256x2048 .f32) (ix2 p k) = (m ((c.tc : Thread nD τ).loc main_arg0) : S256x2048.Idx → EReal) (ix2 p k) := by
  obtain ⟨e0, e1⟩ := idx0 t
  unfold iblk
  rw [View.read_apply]
  show V m c main_arg0 _ = _
  rw [V_kept m c main_arg0 (by decide) (by decide) (by decide) (by decide)]
  congr 1
  funext a
  apply Fin.ext
  match a with
  | ⟨0, _⟩ => show win0_0.index t (0 : Fin 2) * 256 + 1 * p.val = p.val; rw [e0]; omega
  | ⟨1, _⟩ => show win0_0.index t (1 : Fin 2) * 2048 + 1 * k.val = k.val; rw [e1]; omega
theorem iblk1_apply (c : Dev nD) (t : Fin cfg0.N) (p : Fin 256) (k : Fin 2048) :
    (iblk (F := Ideal) m c 1 t : Vec Ideal S256x2048 .f32) (ix2 p k) = (m ((c.tc : Thread nD τ).loc main_arg1) : S256x2048.Idx → EReal) (ix2 p k) := by
  obtain ⟨e0, e1⟩ := idx1 t
  unfold iblk
  rw [View.read_apply]
  show V m c main_arg1 _ = _
  rw [V_kept m c main_arg1 (by decide) (by decide) (by decide) (by decide)]
  congr 1
  funext a
  apply Fin.ext
  match a with
  | ⟨0, _⟩ => show win0_1.index t (0 : Fin 2) * 256 + 1 * p.val = p.val; rw [e0]; omega
  | ⟨1, _⟩ => show win0_1.index t (1 : Fin 2) * 2048 + 1 * k.val = k.val; rw [e1]; omega

/-- The three state arrays: entry (p, q) of the t-th tile is entry (p, 128 t + q) of the array. -/
theorem iblk2_apply (c : Dev nD) (t : Fin cfg0.N) (p : Fin 256) (q : Fin 128) (j : Fin 2048) (hj : j.val = 128 * t.val + q.val) :
    (iblk (F := Ideal) m c 2 t : Vec Ideal S256x128 .f32) (ix2 p q) = (m ((c.tc : Thread nD τ).loc main_arg2) : S256x2048.Idx → EReal) (ix2 p j) := by
  obtain ⟨e0, e1⟩ := idx2 t
  unfold iblk
  rw [View.read_apply]
  show V m c main_arg2 _ = _
  rw [V_kept m c main_arg2 (by decide) (by decide) (by decide) (by decide)]
  congr 1
  funext a
  apply Fin.ext
  match a with
  | ⟨0, _⟩ => show win0_2.index t (0 : Fin 2) * 256 + 1 * p.val = p.val; rw [e0]; omega
  | ⟨1, _⟩ => show win0_2.index t (1 : Fin 2) * 128 + 1 * q.val = j.val; rw [e1, hj]; omega
theorem iblk3_apply (c : Dev nD) (t : Fin cfg0.N) (p : Fin 256) (q : Fin 128) (j : Fin 2048) (hj : j.val = 128 * t.val + q.val) :
    (iblk (F := Ideal) m c 3 t : Vec Ideal S256x128 .f32) (ix2 p q) = (m ((c.tc : Thread nD τ).loc main_arg3) : S256x2048.Idx → EReal) (ix2 p j) := by
  obtain ⟨e0, e1⟩ := idx3 t
  unfold iblk
  rw [View.read_apply]
  show V m c main_arg3 _ = _
  rw [V_kept m c main_arg3 (by decide) (by decide) (by decide) (by decide)]
  congr 1
  funext a
  apply Fin.ext
  match a with
  | ⟨0, _⟩ => show win0_3.index t (0 : Fin 2) * 256 + 1 * p.val = p.val; rw [e0]; omega
  | ⟨1, _⟩ => show win0_3.index t (1 : Fin 2) * 128 + 1 * q.val = j.val; rw [e1, hj]; omega
theorem iblk4_apply (c : Dev nD) (t : Fin cfg0.N) (p : Fin 256) (q : Fin 128) (j : Fin 2048) (hj : j.val = 128 * t.val + q.val) :
    (iblk (F := Ideal) m c 4 t : Vec Ideal S256x128 .f32) (ix2 p q) = (m ((c.tc : Thread nD τ).loc main_arg4) : S256x2048.Idx → EReal) (ix2 p j) := by
  obtain ⟨e0, e1⟩ := idx4 t
  unfold iblk
  rw [View.read_apply]
  show V m c main_arg4 _ = _
  rw [V_kept m c main_arg4 (by decide) (by decide) (by decide) (by decide)]
  congr 1
  funext a
  apply Fin.ext
  match a with
  | ⟨0, _⟩ => show win0_4.index t (0 : Fin 2) * 256 + 1 * p.val = p.val; rw [e0]; omega
  | ⟨1, _⟩ => show win0_4.index t (1 : Fin 2) * 128 + 1 * q.val = j.val; rw [e1, hj]; omega

/-- The eight weight matrices: entry (k, q) of the t-th column tile is entry (k, 128 t + q) of the matrix. -/
theorem iblk5_apply (c : Dev nD) (t : Fin cfg0.N) (k : Fin 2048) (q : Fin 128) (j : Fin 2048) (hj : j.val = 128 * t.val + q.val) :
    (iblk (F := Ideal) m c 5 t : Vec Ideal S2048x128 .f32) (ix2 k q) = (m ((c.tc : Thread nD τ).loc main_arg5) : S2048x2048.Idx → EReal) (ix2 k j) := by
  obtain ⟨e0, e1⟩ := idx5 t
  unfold iblk
  rw [View.read_apply]
  show V m c main_arg5 _ = _
  rw [V_kept m c main_arg5 (by decide) (by decide) (by decide) (by decide)]
  congr 1
  funext a
  apply Fin.ext
  match a with
  | ⟨0, _⟩ => show win0_5.index t (0 : Fin 2) * 2048 + 1 * k.val = k.val; rw [e0]; omega
  | ⟨1, _⟩ => show win0_5.index t (1 : Fin 2) * 128 + 1 * q.val = j.val; rw [e1, hj]; omega
theorem iblk6_apply (c : Dev nD) (t : Fin cfg0.N) (k : Fin 2048) (q : Fin 128) (j : Fin 2048) (hj : j.val = 128 * t.val + q.val) :
    (iblk (F := Ideal) m c 6 t : Vec Ideal S2048x128 .f32) (ix2 k q) = (m ((c.tc : Thread nD τ).loc main_arg6) : S2048x2048.Idx → EReal) (ix2 k j) := by
  obtain ⟨e0, e1⟩ := idx6 t
  unfold iblk
  rw [View.read_apply]
  show V m c main_arg6 _ = _
  rw [V_kept m c main_arg6 (by decide) (by decide) (by decide) (by decide)]
  congr 1
  funext a
  apply Fin.ext
  match a with
  | ⟨0, _⟩ => show win0_6.index t (0 : Fin 2) * 2048 + 1 * k.val = k.val; rw [e0]; omega
  | ⟨1, _⟩ => show win0_6.index t (1 : Fin 2) * 128 + 1 * q.val = j.val; rw [e1, hj]; omega
theorem iblk7_apply (c : Dev nD) (t : Fin cfg0.N) (k : Fin 2048) (q : Fin 128) (j : Fin 2048) (hj : j.val = 128 * t.val + q.val) :
    (iblk (F := Ideal) m c 7 t : Vec Ideal S2048x128 .f32) (ix2 k q) = (m ((c.tc : Thread nD τ).loc main_arg7) : S2048x2048.Idx → EReal) (ix2 k j) := by
  obtain ⟨e0, e1⟩ := idx7 t
  unfold iblk
  rw [View.read_apply]
  show V m c main_arg7 _ = _
  rw [V_kept m c main_arg7 (by decide) (by decide) (by decide) (by decide)]
  congr 1
  funext a
  apply Fin.ext
  match a with
  | ⟨0, _⟩ => show win0_7.index t (0 : Fin 2) * 2048 + 1 * k.val = k.val; rw [e0]; omega
  | ⟨1, _⟩ => show win0_7.index t (1 : Fin 2) * 128 + 1 * q.val = j.val; rw [e1, hj]; omega
theorem iblk8_apply (c : Dev nD) (t : Fin cfg0.N) (k : Fin 2048) (q : Fin 128) (j : Fin 2048) (hj : j.val = 128 * t.val + q.val) :
    (iblk (F := Ideal) m c 8 t : Vec Ideal S2048x128 .f32) (ix2 k q) = (m ((c.tc : Thread nD τ).loc main_arg8) : S2048x2048.Idx → EReal) (ix2 k j) := by
  obtain ⟨e0, e1⟩ := idx8 t
  unfold iblk
  rw [View.read_apply]
  show V m c main_arg8 _ = _
  rw [V_kept m c main_arg8 (by decide) (by decide) (by decide) (by decide)]
  congr 1
  funext a
  apply Fin.ext
  match a with
  | ⟨0, _⟩ => show win0_8.index t (0 : Fin 2) * 2048 + 1 * k.val = k.val; rw [e0]; omega
  | ⟨1, _⟩ => show win0_8.index t (1 : Fin 2) * 128 + 1 * q.val = j.val; rw [e1, hj]; omega
theorem iblk13_apply (c : Dev nD) (t : Fin cfg0.N) (k : Fin 2048) (q : Fin 128) (j : Fin 2048) (hj : j.val = 128 * t.val + q.val) :
    (iblk (F := Ideal) m c 13 t : Vec Ideal S2048x128 .f32) (ix2 k q) = (m ((c.tc : Thread nD τ).loc main_arg13) : S2048x2048.Idx → EReal) (ix2 k j) := by
  obtain ⟨e0, e1⟩ := idx13 t
  unfold iblk
  rw [View.read_apply]
  show V m c main_arg13 _ = _
  rw [V_kept m c main_arg13 (by decide) (by decide) (by decide) (by decide)]
  congr 1
  funext a
  apply Fin.ext
  match a with
  | ⟨0, _⟩ => show win0_13.index t (0 : Fin 2) * 2048 + 1 * k.val = k.val; rw [e0]; omega
  | ⟨1, _⟩ => show win0_13.index t (1 : Fin 2) * 128 + 1 * q.val = j.val; rw [e1, hj]; omega
theorem iblk14_apply (c : Dev nD) (t : Fin cfg0.N) (k : Fin 2048) (q : Fin 128) (j : Fin 2048) (hj : j.val = 128 * t.val + q.val) :
    (iblk (F := Ideal) m c 14 t : Vec Ideal S2048x128 .f32) (ix2 k q) = (m ((c.tc : Thread nD τ).loc main_arg14) : S2048x2048.Idx → EReal) (ix2 k j) := by
  obtain ⟨e0, e1⟩ := idx14 t
  unfold iblk
  rw [View.read_apply]
  show V m c main_arg14 _ = _
  rw [V_kept m c main_arg14 (by decide) (by decide) (by decide) (by decide)]
  congr 1
  funext a
  apply Fin.ext
  match a with
  | ⟨0, _⟩ => show win0_14.index t (0 : Fin 2) * 2048 + 1 * k.val = k.val; rw [e0]; omega
  | ⟨1, _⟩ => show win0_14.index t (1 : Fin 2) * 128 + 1 * q.val = j.val; rw [e1, hj]; omega
theorem iblk15_apply (c : Dev nD) (t : Fin cfg0.N) (k : Fin 2048) (q : Fin 128) (j : Fin 2048) (hj : j.val = 128 * t.val + q.val) :
    (iblk (F := Ideal) m c 15 t : Vec Ideal S2048x128 .f32) (ix2 k q) = (m ((c.tc : Thread nD τ).loc main_arg15) : S2048x2048.Idx → EReal) (ix2 k j) := by
  obtain ⟨e0, e1⟩ := idx15 t
  unfold iblk
  rw [View.read_apply]
  show V m c main_arg15 _ = _
  rw [V_kept m c main_arg15 (by decide) (by decide) (by decide) (by decide)]
  congr 1
  funext a
  apply Fin.ext
  match a with
  | ⟨0, _⟩ => show win0_15.index t (0 : Fin 2) * 2048 + 1 * k.val = k.val; rw [e0]; omega
  | ⟨1, _⟩ => show win0_15.index t (1 : Fin 2) * 128 + 1 * q.val = j.val; rw [e1, hj]; omega
theorem iblk16_apply (c : Dev nD) (t : Fin cfg0.N) (k : Fin 2048) (q : Fin 128) (j : Fin 2048) (hj : j.val = 128 * t.val + q.val) :
    (iblk (F := Ideal) m c 16 t : Vec Ideal S2048x128 .f32) (ix2 k q) = (m ((c.tc : Thread nD τ).loc main_arg16) : S2048x2048.Idx → EReal) (ix2 k j) := by
  obtain ⟨e0, e1⟩ := idx16 t
  unfold iblk
  rw [View.read_apply]
  show V m c main_arg16 _ = _
  rw [V_kept m c main_arg16 (by decide) (by decide) (by decide) (by decide)]
  congr 1
  funext a
  apply Fin.ext
  match a with
  | ⟨0, _⟩ => show win0_16.index t (0 : Fin 2) * 2048 + 1 * k.val = k.val; rw [e0]; omega
  | ⟨1, _⟩ => show win0_16.index t (1 : Fin 2) * 128 + 1 * q.val = j.val; rw [e1, hj]; omega

/-! ## The bias rows -/

/-- The region finds each bias row as the [1, 2048] reshape of its [2048] bias vector. -/
theorem V_bias0 (c : Dev nD) :
    (V m c main_v0 : S1x2048.Idx → EReal) = shapeCast S1x2048 (m ((c.tc : Thread nD τ).loc main_arg9) : S2048.Idx → EReal) shapeCasts_S2048_S1x2048 := by
  dsimp only [V, V0]
  simp only [hostOps0, List.flatten_cons, List.flatten_nil, List.append_nil, List.cons_append, List.nil_append]
  after_results
  rfl
theorem V_bias1 (c : Dev nD) :
    (V m c main_v1 : S1x2048.Idx → EReal) = shapeCast S1x2048 (m ((c.tc : Thread nD τ).loc main_arg10) : S2048.Idx → EReal) shapeCasts_S2048_S1x2048 := by
  dsimp only [V, V0]
  simp only [hostOps0, List.flatten_cons, List.flatten_nil, List.append_nil, List.cons_append, List.nil_append]
  after_results
  rfl
theorem V_bias2 (c : Dev nD) :
    (V m c main_v2 : S1x2048.Idx → EReal) = shapeCast S1x2048 (m ((c.tc : Thread nD τ).loc main_arg11) : S2048.Idx → EReal) shapeCasts_S2048_S1x2048 := by
  dsimp only [V, V0]
  simp only [hostOps0, List.flatten_cons, List.flatten_nil, List.append_nil, List.cons_append, List.nil_append]
  after_results
  rfl
theorem V_bias3 (c : Dev nD) :
    (V m c main_v3 : S1x2048.Idx → EReal) = shapeCast S1x2048 (m ((c.tc : Thread nD τ).loc main_arg12) : S2048.Idx → EReal) shapeCasts_S2048_S1x2048 := by
  dsimp only [V, V0]
  simp only [hostOps0, List.flatten_cons, List.flatten_nil, List.append_nil, List.cons_append, List.nil_append]
  after_results
  rfl

/-- A [2048] vector reshaped to one row, read at (0, j), is the vector at j. -/
theorem bias_read (β : S2048.Idx → EReal) (j : Fin 2048) :
    shapeCast S1x2048 β shapeCasts_S2048_S1x2048 (ix2 (0 : Fin 1) j) = β (ix1 j) := by
  refine shapeCast_apply β shapeCasts_S2048_S1x2048 (ix2 (0 : Fin 1) j) (ix1 j) ?_
  rw [Shape.rowMajor_val_one, Shape.rowMajor_val_two]
  show j.val = 0 * 2048 + j.val
  omega

/-- Entry (0, q) of the t-th tile of a bias row is the bias at unit 128 t + q. -/
theorem iblk9_apply (c : Dev nD) (t : Fin cfg0.N) (q : Fin 128) (j : Fin 2048) (hj : j.val = 128 * t.val + q.val) :
    (iblk (F := Ideal) m c 9 t : Vec Ideal S1x128 .f32) (ix2 (0 : Fin 1) q) = (m ((c.tc : Thread nD τ).loc main_arg9) : S2048.Idx → EReal) (ix1 j) := by
  obtain ⟨e0, e1⟩ := idx9 t
  refine Eq.trans ?_ (bias_read _ j)
  unfold iblk
  rw [View.read_apply]
  show (V m c main_v0 : S1x2048.Idx → EReal) _ = _
  rw [V_bias0]
  congr 1
  funext a
  apply Fin.ext
  match a with
  | ⟨0, _⟩ => show win0_9.index t (0 : Fin 2) * 1 + 1 * 0 = 0; rw [e0]
  | ⟨1, _⟩ => show win0_9.index t (1 : Fin 2) * 128 + 1 * q.val = j.val; rw [e1, hj]; omega
theorem iblk10_apply (c : Dev nD) (t : Fin cfg0.N) (q : Fin 128) (j : Fin 2048) (hj : j.val = 128 * t.val + q.val) :
    (iblk (F := Ideal) m c 10 t : Vec Ideal S1x128 .f32) (ix2 (0 : Fin 1) q) = (m ((c.tc : Thread nD τ).loc main_arg10) : S2048.Idx → EReal) (ix1 j) := by
  obtain ⟨e0, e1⟩ := idx10 t
  refine Eq.trans ?_ (bias_read _ j)
  unfold iblk
  rw [View.read_apply]
  show (V m c main_v1 : S1x2048.Idx → EReal) _ = _
  rw [V_bias1]
  congr 1
  funext a
  apply Fin.ext
  match a with
  | ⟨0, _⟩ => show win0_10.index t (0 : Fin 2) * 1 + 1 * 0 = 0; rw [e0]
  | ⟨1, _⟩ => show win0_10.index t (1 : Fin 2) * 128 + 1 * q.val = j.val; rw [e1, hj]; omega
theorem iblk11_apply (c : Dev nD) (t : Fin cfg0.N) (q : Fin 128) (j : Fin 2048) (hj : j.val = 128 * t.val + q.val) :
    (iblk (F := Ideal) m c 11 t : Vec Ideal S1x128 .f32) (ix2 (0 : Fin 1) q) = (m ((c.tc : Thread nD τ).loc main_arg11) : S2048.Idx → EReal) (ix1 j) := by
  obtain ⟨e0, e1⟩ := idx11 t
  refine Eq.trans ?_ (bias_read _ j)
  unfold iblk
  rw [View.read_apply]
  show (V m c main_v2 : S1x2048.Idx → EReal) _ = _
  rw [V_bias2]
  congr 1
  funext a
  apply Fin.ext
  match a with
  | ⟨0, _⟩ => show win0_11.index t (0 : Fin 2) * 1 + 1 * 0 = 0; rw [e0]
  | ⟨1, _⟩ => show win0_11.index t (1 : Fin 2) * 128 + 1 * q.val = j.val; rw [e1, hj]; omega
theorem iblk12_apply (c : Dev nD) (t : Fin cfg0.N) (q : Fin 128) (j : Fin 2048) (hj : j.val = 128 * t.val + q.val) :
    (iblk (F := Ideal) m c 12 t : Vec Ideal S1x128 .f32) (ix2 (0 : Fin 1) q) = (m ((c.tc : Thread nD τ).loc main_arg12) : S2048.Idx → EReal) (ix1 j) := by
  obtain ⟨e0, e1⟩ := idx12 t
  refine Eq.trans ?_ (bias_read _ j)
  unfold iblk
  rw [View.read_apply]
  show (V m c main_v3 : S1x2048.Idx → EReal) _ = _
  rw [V_bias3]
  congr 1
  funext a
  apply Fin.ext
  match a with
  | ⟨0, _⟩ => show win0_12.index t (0 : Fin 2) * 1 + 1 * 0 = 0; rw [e0]
  | ⟨1, _⟩ => show win0_12.index t (1 : Fin 2) * 128 + 1 * q.val = j.val; rw [e1, hj]; omega

/-! ## From the tiles to the cell -/

/-- One gate's tile pre-activation is the gate's pre-activation at unit `j` when the tiles of its weights and bias, read
    at column `q`, are the weights and bias at unit `j`. -/
theorem gateT_eq_gate {x h xT hT : St} {W U : Wt} {β : Bs} {WT UT : WtT} {βT : BsT} {p : Fin 256} {q : Fin 128} {j : Fin 2048}
    (hx : ∀ k : Fin 2048, xT (ix2 p k) = x (ix2 p k)) (hh : ∀ k : Fin 2048, hT (ix2 p k) = h (ix2 p k))
    (hW : ∀ k : Fin 2048, WT (ix2 k q) = W (ix2 k j)) (hU : ∀ k : Fin 2048, UT (ix2 k q) = U (ix2 k j))
    (hβ : βT (ix2 (0 : Fin 1) q) = β (ix1 j)) : gateT xT hT WT UT βT p q = gate x h W U β p j := by
  unfold gateT gate
  simp only [hx, hh, hW, hU, hβ]

/-- The input tiles `u` hold, for row `p` and tile column `q`, what the arguments `a` hold for row `p` and unit `j`. -/
structure Reads (a : Args) (u : Tile.In Ideal) (p : Fin 256) (q : Fin 128) (j : Fin 2048) : Prop where
  x : ∀ k : Fin 2048, u.x (ix2 p k) = a.x (ix2 p k)
  h : ∀ k : Fin 2048, u.h (ix2 p k) = a.h (ix2 p k)
  c : u.c (ix2 p q) = a.c (ix2 p j)
  n : u.n (ix2 p q) = a.n (ix2 p j)
  m : u.m (ix2 p q) = a.m (ix2 p j)
  Wz : ∀ k : Fin 2048, u.Wz (ix2 k q) = a.Wz (ix2 k j)
  Wi : ∀ k : Fin 2048, u.Wi (ix2 k q) = a.Wi (ix2 k j)
  Wf : ∀ k : Fin 2048, u.Wf (ix2 k q) = a.Wf (ix2 k j)
  Wo : ∀ k : Fin 2048, u.Wo (ix2 k q) = a.Wo (ix2 k j)
  bz : u.bz (ix2 (0 : Fin 1) q) = a.bz (ix1 j)
  bi : u.bi (ix2 (0 : Fin 1) q) = a.bi (ix1 j)
  bf : u.bf (ix2 (0 : Fin 1) q) = a.bf (ix1 j)
  bo : u.bo (ix2 (0 : Fin 1) q) = a.bo (ix1 j)
  Uz : ∀ k : Fin 2048, u.Uz (ix2 k q) = a.Uz (ix2 k j)
  Ui : ∀ k : Fin 2048, u.Ui (ix2 k q) = a.Ui (ix2 k j)
  Uf : ∀ k : Fin 2048, u.Uf (ix2 k q) = a.Uf (ix2 k j)
  Uo : ∀ k : Fin 2048, u.Uo (ix2 k q) = a.Uo (ix2 k j)

section OfReads
variable {a : Args} {u : Tile.In Ideal} {p : Fin 256} {q : Fin 128} {j : Fin 2048} (R : Reads a u p q j)
include R

/-- Then the four tile pre-activations are the four gates' pre-activations, -/
theorem Reads.zt : TileVal.ztT u p q = zt a p j := gateT_eq_gate R.x R.h R.Wz R.Uz R.bz
theorem Reads.it : TileVal.itT u p q = it a p j := gateT_eq_gate R.x R.h R.Wi R.Ui R.bi
theorem Reads.ft : TileVal.ftT u p q = ft a p j := gateT_eq_gate R.x R.h R.Wf R.Uf R.bf
theorem Reads.ot : TileVal.otT u p q = ot a p j := gateT_eq_gate R.x R.h R.Wo R.Uo R.bo

/-- and the four output tiles at (p, q) are the four result planes at (p, j). -/
theorem hTile_of_reads : Tile.hTile u (ix2 p q) = hOut a p j := by
  rw [TileVal.hTile_apply, R.zt, R.it, R.ft, R.ot, R.m, R.c, R.n]
  rfl
theorem cTile_of_reads : Tile.cTile u (ix2 p q) = cOut a p j := by
  rw [TileVal.cTile_apply, R.zt, R.it, R.ft, R.m, R.c]
  rfl
theorem nTile_of_reads : Tile.nTile u (ix2 p q) = nOut a p j := by
  rw [TileVal.nTile_apply, R.it, R.ft, R.m, R.n]
  rfl
theorem mTile_of_reads : Tile.mTile u (ix2 p q) = mOut a p j := by
  rw [TileVal.mTile_apply, R.it, R.m]
  rfl

end OfReads

/-- The tiles point `t` reads hold, for row `p` and column `q`, what the arguments hold for row `p` and unit 128 t + q. -/
theorem reads_tiles (c : Dev nD) (t : Fin cfg0.N) (p : Fin 256) (q : Fin 128) (j : Fin 2048) (hj : j.val = 128 * t.val + q.val) :
    Reads (args m c) (tiles (F := Ideal) m c t) p q j where
  x k := by dsimp only [tiles, args]; exact iblk0_apply m c t p k
  h k := by dsimp only [tiles, args]; exact iblk1_apply m c t p k
  c := by dsimp only [tiles, args]; exact iblk2_apply m c t p q j hj
  n := by dsimp only [tiles, args]; exact iblk3_apply m c t p q j hj
  m := by dsimp only [tiles, args]; exact iblk4_apply m c t p q j hj
  Wz k := by dsimp only [tiles, args]; exact iblk5_apply m c t k q j hj
  Wi k := by dsimp only [tiles, args]; exact iblk6_apply m c t k q j hj
  Wf k := by dsimp only [tiles, args]; exact iblk7_apply m c t k q j hj
  Wo k := by dsimp only [tiles, args]; exact iblk8_apply m c t k q j hj
  bz := by dsimp only [tiles, args]; exact iblk9_apply m c t q j hj
  bi := by dsimp only [tiles, args]; exact iblk10_apply m c t q j hj
  bf := by dsimp only [tiles, args]; exact iblk11_apply m c t q j hj
  bo := by dsimp only [tiles, args]; exact iblk12_apply m c t q j hj
  Uz k := by dsimp only [tiles, args]; exact iblk13_apply m c t k q j hj
  Ui k := by dsimp only [tiles, args]; exact iblk14_apply m c t k q j hj
  Uf k := by dsimp only [tiles, args]; exact iblk15_apply m c t k q j hj
  Uo k := by dsimp only [tiles, args]; exact iblk16_apply m c t k q j hj

/-! ## The four output arrays -/

/-- The four result planes as functions of a [256, 2048] index. -/
def GH (c : Dev nD) : S256x2048.Idx → EReal := fun i => hOut (args m c) ⟨(i 0).val, idx2_lt0 i⟩ ⟨(i 1).val, idx2_lt1 i⟩
def GC (c : Dev nD) : S256x2048.Idx → EReal := fun i => cOut (args m c) ⟨(i 0).val, idx2_lt0 i⟩ ⟨(i 1).val, idx2_lt1 i⟩
def GN (c : Dev nD) : S256x2048.Idx → EReal := fun i => nOut (args m c) ⟨(i 0).val, idx2_lt0 i⟩ ⟨(i 1).val, idx2_lt1 i⟩
def GM (c : Dev nD) : S256x2048.Idx → EReal := fun i => mOut (args m c) ⟨(i 0).val, idx2_lt0 i⟩ ⟨(i 1).val, idx2_lt1 i⟩

/-- What point `t` writes back to the hidden-state array is block `t` of the hidden-state plane. -/
theorem flushedH (c : Dev nD) (t : Fin cfg0.N) :
    (dats (F := Ideal) m 0 c).flushed 17 t = ((cfg0.win 17).blk t).view.read (Elt Ideal) (GH m c) := by
  show (cfg0.win 17).cut (grid0.coords t) ((dats (F := Ideal) m 0 c).after 17 t) = _
  rw [after17, outH_eq]
  obtain ⟨e0, e1⟩ := idx17 t
  funext y
  obtain ⟨p, q, rfl⟩ : ∃ (p : Fin 256) (q : Fin 128), y = ix2 p q := ⟨y 0, y 1, eq_ix2 y⟩
  have he : ((cfg0.win 17).blk t).view.emb (ix2 p q) = (ix2 p ⟨128 * t.val + q.val, col_lt t q⟩ : S256x2048.Idx) := by
    funext a
    apply Fin.ext
    match a with
    | ⟨0, _⟩ => show win0_17.index t (0 : Fin 2) * 256 + 1 * p.val = p.val; rw [e0]; omega
    | ⟨1, _⟩ => show win0_17.index t (1 : Fin 2) * 128 + 1 * q.val = 128 * t.val + q.val; rw [e1]; omega
  show Tile.hTile (tiles (F := Ideal) m c t) (ix2 p q) = GH m c (((cfg0.win 17).blk t).view.emb (ix2 p q))
  rw [he]
  exact hTile_of_reads (reads_tiles m c t p q _ rfl)

/-- Every entry of the array lies in the tile of the point its column selects. -/
theorem coverH (i : S256x2048.Idx) : ∃ t : Fin cfg0.N, (cfg0.win 17).flush t = true ∧ i ∈ ((cfg0.win 17).blk t).view.set := by
  have h0 : (i 0).val < 256 := idx2_lt0 i
  have h1 : (i 1).val < 2048 := idx2_lt1 i
  obtain ⟨t, ht⟩ : ∃ t : Fin cfg0.N, t.val = (i 1).val / 128 := ⟨⟨(i 1).val / 128, lt_of_lt_of_eq (by omega) N_0.symm⟩, rfl⟩
  obtain ⟨e0, e1⟩ := idx17 t
  refine ⟨t, flush0_17 t, ?_⟩
  show i ∈ ((View.whole main_v4_0).slice (win0_17.rect t)).set
  rw [View.set_slice_whole, Rect.mem_set_unit]
  intro a
  match a with
  | ⟨0, _⟩ => show win0_17.index t (0 : Fin 2) * 256 ≤ (i 0).val ∧ (i 0).val < win0_17.index t (0 : Fin 2) * 256 + 256; rw [e0]; omega
  | ⟨1, _⟩ => show win0_17.index t (1 : Fin 2) * 128 ≤ (i 1).val ∧ (i 1).val < win0_17.index t (1 : Fin 2) * 128 + 128; rw [e1, ht]; omega

/-- The four output arrays after the region, at row `b`, unit `j`. -/
theorem arrH (c : Dev nD) (b : Fin 256) (j : Fin 2048) :
    ((dats (F := Ideal) m 0 c).arrAt 17 cfg0.N : S256x2048.Idx → EReal) (ix2 b j) = hOut (args m c) b j := by
  rw [(dats (F := Ideal) m 0 c).arrAt_eq_of_cover 17 (GH m c) (fun t _ => flushedH m c t) coverH]
  rfl

/-- What point `t` writes back to the cell-state array is block `t` of the cell-state plane. -/
theorem flushedC (c : Dev nD) (t : Fin cfg0.N) :
    (dats (F := Ideal) m 0 c).flushed 18 t = ((cfg0.win 18).blk t).view.read (Elt Ideal) (GC m c) := by
  show (cfg0.win 18).cut (grid0.coords t) ((dats (F := Ideal) m 0 c).after 18 t) = _
  rw [after18, outC_eq]
  obtain ⟨e0, e1⟩ := idx18 t
  funext y
  obtain ⟨p, q, rfl⟩ : ∃ (p : Fin 256) (q : Fin 128), y = ix2 p q := ⟨y 0, y 1, eq_ix2 y⟩
  have he : ((cfg0.win 18).blk t).view.emb (ix2 p q) = (ix2 p ⟨128 * t.val + q.val, col_lt t q⟩ : S256x2048.Idx) := by
    funext a
    apply Fin.ext
    match a with
    | ⟨0, _⟩ => show win0_18.index t (0 : Fin 2) * 256 + 1 * p.val = p.val; rw [e0]; omega
    | ⟨1, _⟩ => show win0_18.index t (1 : Fin 2) * 128 + 1 * q.val = 128 * t.val + q.val; rw [e1]; omega
  show Tile.cTile (tiles (F := Ideal) m c t) (ix2 p q) = GC m c (((cfg0.win 18).blk t).view.emb (ix2 p q))
  rw [he]
  exact cTile_of_reads (reads_tiles m c t p q _ rfl)

theorem coverC (i : S256x2048.Idx) : ∃ t : Fin cfg0.N, (cfg0.win 18).flush t = true ∧ i ∈ ((cfg0.win 18).blk t).view.set := by
  have h0 : (i 0).val < 256 := idx2_lt0 i
  have h1 : (i 1).val < 2048 := idx2_lt1 i
  obtain ⟨t, ht⟩ : ∃ t : Fin cfg0.N, t.val = (i 1).val / 128 := ⟨⟨(i 1).val / 128, lt_of_lt_of_eq (by omega) N_0.symm⟩, rfl⟩
  obtain ⟨e0, e1⟩ := idx18 t
  refine ⟨t, flush0_18 t, ?_⟩
  show i ∈ ((View.whole main_v4_1).slice (win0_18.rect t)).set
  rw [View.set_slice_whole, Rect.mem_set_unit]
  intro a
  match a with
  | ⟨0, _⟩ => show win0_18.index t (0 : Fin 2) * 256 ≤ (i 0).val ∧ (i 0).val < win0_18.index t (0 : Fin 2) * 256 + 256; rw [e0]; omega
  | ⟨1, _⟩ => show win0_18.index t (1 : Fin 2) * 128 ≤ (i 1).val ∧ (i 1).val < win0_18.index t (1 : Fin 2) * 128 + 128; rw [e1, ht]; omega

theorem arrC (c : Dev nD) (b : Fin 256) (j : Fin 2048) :
    ((dats (F := Ideal) m 0 c).arrAt 18 cfg0.N : S256x2048.Idx → EReal) (ix2 b j) = cOut (args m c) b j := by
  rw [(dats (F := Ideal) m 0 c).arrAt_eq_of_cover 18 (GC m c) (fun t _ => flushedC m c t) coverC]
  rfl

/-- What point `t` writes back to the normaliser array is block `t` of the normaliser plane. -/
theorem flushedN (c : Dev nD) (t : Fin cfg0.N) :
    (dats (F := Ideal) m 0 c).flushed 19 t = ((cfg0.win 19).blk t).view.read (Elt Ideal) (GN m c) := by
  show (cfg0.win 19).cut (grid0.coords t) ((dats (F := Ideal) m 0 c).after 19 t) = _
  rw [after19, outN_eq]
  obtain ⟨e0, e1⟩ := idx19 t
  funext y
  obtain ⟨p, q, rfl⟩ : ∃ (p : Fin 256) (q : Fin 128), y = ix2 p q := ⟨y 0, y 1, eq_ix2 y⟩
  have he : ((cfg0.win 19).blk t).view.emb (ix2 p q) = (ix2 p ⟨128 * t.val + q.val, col_lt t q⟩ : S256x2048.Idx) := by
    funext a
    apply Fin.ext
    match a with
    | ⟨0, _⟩ => show win0_19.index t (0 : Fin 2) * 256 + 1 * p.val = p.val; rw [e0]; omega
    | ⟨1, _⟩ => show win0_19.index t (1 : Fin 2) * 128 + 1 * q.val = 128 * t.val + q.val; rw [e1]; omega
  show Tile.nTile (tiles (F := Ideal) m c t) (ix2 p q) = GN m c (((cfg0.win 19).blk t).view.emb (ix2 p q))
  rw [he]
  exact nTile_of_reads (reads_tiles m c t p q _ rfl)

theorem coverN (i : S256x2048.Idx) : ∃ t : Fin cfg0.N, (cfg0.win 19).flush t = true ∧ i ∈ ((cfg0.win 19).blk t).view.set := by
  have h0 : (i 0).val < 256 := idx2_lt0 i
  have h1 : (i 1).val < 2048 := idx2_lt1 i
  obtain ⟨t, ht⟩ : ∃ t : Fin cfg0.N, t.val = (i 1).val / 128 := ⟨⟨(i 1).val / 128, lt_of_lt_of_eq (by omega) N_0.symm⟩, rfl⟩
  obtain ⟨e0, e1⟩ := idx19 t
  refine ⟨t, flush0_19 t, ?_⟩
  show i ∈ ((View.whole main_v4_2).slice (win0_19.rect t)).set
  rw [View.set_slice_whole, Rect.mem_set_unit]
  intro a
  match a with
  | ⟨0, _⟩ => show win0_19.index t (0 : Fin 2) * 256 ≤ (i 0).val ∧ (i 0).val < win0_19.index t (0 : Fin 2) * 256 + 256; rw [e0]; omega
  | ⟨1, _⟩ => show win0_19.index t (1 : Fin 2) * 128 ≤ (i 1).val ∧ (i 1).val < win0_19.index t (1 : Fin 2) * 128 + 128; rw [e1, ht]; omega

theorem arrN (c : Dev nD) (b : Fin 256) (j : Fin 2048) :
    ((dats (F := Ideal) m 0 c).arrAt 19 cfg0.N : S256x2048.Idx → EReal) (ix2 b j) = nOut (args m c) b j := by
  rw [(dats (F := Ideal) m 0 c).arrAt_eq_of_cover 19 (GN m c) (fun t _ => flushedN m c t) coverN]
  rfl

/-- What point `t` writes back to the stabiliser array is block `t` of the stabiliser plane. -/
theorem flushedM (c : Dev nD) (t : Fin cfg0.N) :
    (dats (F := Ideal) m 0 c).flushed 20 t = ((cfg0.win 20).blk t).view.read (Elt Ideal) (GM m c) := by
  show (cfg0.win 20).cut (grid0.coords t) ((dats (F := Ideal) m 0 c).after 20 t) = _
  rw [after20, outM_eq]
  obtain ⟨e0, e1⟩ := idx20 t
  funext y
  obtain ⟨p, q, rfl⟩ : ∃ (p : Fin 256) (q : Fin 128), y = ix2 p q := ⟨y 0, y 1, eq_ix2 y⟩
  have he : ((cfg0.win 20).blk t).view.emb (ix2 p q) = (ix2 p ⟨128 * t.val + q.val, col_lt t q⟩ : S256x2048.Idx) := by
    funext a
    apply Fin.ext
    match a with
    | ⟨0, _⟩ => show win0_20.index t (0 : Fin 2) * 256 + 1 * p.val = p.val; rw [e0]; omega
    | ⟨1, _⟩ => show win0_20.index t (1 : Fin 2) * 128 + 1 * q.val = 128 * t.val + q.val; rw [e1]; omega
  show Tile.mTile (tiles (F := Ideal) m c t) (ix2 p q) = GM m c (((cfg0.win 20).blk t).view.emb (ix2 p q))
  rw [he]
  exact mTile_of_reads (reads_tiles m c t p q _ rfl)

theorem coverM (i : S256x2048.Idx) : ∃ t : Fin cfg0.N, (cfg0.win 20).flush t = true ∧ i ∈ ((cfg0.win 20).blk t).view.set := by
  have h0 : (i 0).val < 256 := idx2_lt0 i
  have h1 : (i 1).val < 2048 := idx2_lt1 i
  obtain ⟨t, ht⟩ : ∃ t : Fin cfg0.N, t.val = (i 1).val / 128 := ⟨⟨(i 1).val / 128, lt_of_lt_of_eq (by omega) N_0.symm⟩, rfl⟩
  obtain ⟨e0, e1⟩ := idx20 t
  refine ⟨t, flush0_20 t, ?_⟩
  show i ∈ ((View.whole main_v4_3).slice (win0_20.rect t)).set
  rw [View.set_slice_whole, Rect.mem_set_unit]
  intro a
  match a with
  | ⟨0, _⟩ => show win0_20.index t (0 : Fin 2) * 256 ≤ (i 0).val ∧ (i 0).val < win0_20.index t (0 : Fin 2) * 256 + 256; rw [e0]; omega
  | ⟨1, _⟩ => show win0_20.index t (1 : Fin 2) * 128 ≤ (i 1).val ∧ (i 1).val < win0_20.index t (1 : Fin 2) * 128 + 128; rw [e1, ht]; omega

theorem arrM (c : Dev nD) (b : Fin 256) (j : Fin 2048) :
    ((dats (F := Ideal) m 0 c).arrAt 20 cfg0.N : S256x2048.Idx → EReal) (ix2 b j) = mOut (args m c) b j := by
  rw [(dats (F := Ideal) m 0 c).arrAt_eq_of_cover 20 (GM m c) (fun t _ => flushedM m c t) coverM]
  rfl

/-! ## The stacked result -/

/-- The five stacking operations, run from any contents of the buffers: the four result arrays, each given a leading
    axis of extent one, concatenated along it. -/
theorem tail_eq (W : Valuation τ sig (Elt Ideal)) :
    (StableHlo.after (hostOps1 (F := Ideal)) W (Proc.devRef .tc main_v9) : S4x256x2048.Idx → EReal)
      = concatenate S4x256x2048 0
          [⟨S1x256x2048, broadcastInDim S1x256x2048 ![1, 2] bcast_S256x2048_S1x256x2048_1_2 (W (Proc.devRef .tc main_v4_0) : S256x2048.Idx → EReal)⟩,
           ⟨S1x256x2048, broadcastInDim S1x256x2048 ![1, 2] bcast_S256x2048_S1x256x2048_1_2 (W (Proc.devRef .tc main_v4_1) : S256x2048.Idx → EReal)⟩,
           ⟨S1x256x2048, broadcastInDim S1x256x2048 ![1, 2] bcast_S256x2048_S1x256x2048_1_2 (W (Proc.devRef .tc main_v4_2) : S256x2048.Idx → EReal)⟩,
           ⟨S1x256x2048, broadcastInDim S1x256x2048 ![1, 2] bcast_S256x2048_S1x256x2048_1_2 (W (Proc.devRef .tc main_v4_3) : S256x2048.Idx → EReal)⟩]
          concatenates_S1x256x2048_S1x256x2048_S1x256x2048_S1x256x2048_S4x256x2048_d0 := by
  after_results_simp <;> rfl

/-- An array given a leading axis of extent one, read at (0, b, j), is the array at (b, j). -/
theorem lead_read (X : S256x2048.Idx → EReal) (b : Fin 256) (j : Fin 2048) :
    broadcastInDim S1x256x2048 ![1, 2] bcast_S256x2048_S1x256x2048_1_2 X (ix3 (0 : Fin 1) b j) = X (ix2 b j) := by
  show X _ = X _
  congr 1
  funext a
  match a with
  | ⟨0, _⟩ => rfl
  | ⟨1, _⟩ => rfl

/-- The stacked result after the operations that follow the region, at plane `g`, row `b`, unit `j`. -/
theorem kernel_out (c : Dev nD) (g : Fin 4) (b : Fin 256) (j : Fin 2048) :
    (Pipeline.afterTail₀ cfgs (dats (F := Ideal) m) 0 (V0 m) [hostOps1] c main_v9 : S4x256x2048.Idx → EReal) (ix3 g b j)
      = Cert.Cell.out (args m c) g b j := by
  unfold Pipeline.afterTail₀
  simp only [List.flatten_cons, List.flatten_nil, List.append_nil]
  rw [tail_eq]
  have e17 := Pipeline.withArrays_arr (Val := Elt Ideal) spec0 launch0.win.arr_inj c (V0 m c) (fun w => (dats (F := Ideal) m 0 c).arrAt w (cfgs 0).N) 17
  have e18 := Pipeline.withArrays_arr (Val := Elt Ideal) spec0 launch0.win.arr_inj c (V0 m c) (fun w => (dats (F := Ideal) m 0 c).arrAt w (cfgs 0).N) 18
  have e19 := Pipeline.withArrays_arr (Val := Elt Ideal) spec0 launch0.win.arr_inj c (V0 m c) (fun w => (dats (F := Ideal) m 0 c).arrAt w (cfgs 0).N) 19
  have e20 := Pipeline.withArrays_arr (Val := Elt Ideal) spec0 launch0.win.arr_inj c (V0 m c) (fun w => (dats (F := Ideal) m 0 c).arrAt w (cfgs 0).N) 20
  match g with
  | ⟨0, hg⟩ =>
    refine (Cert.RefCell.cat_plane0 _ _ _ _ ⟨0, hg⟩ rfl b j).trans ?_
    refine (lead_read _ b j).trans ?_
    refine (congrFun e17 (ix2 b j)).trans ?_
    refine (arrH m c b j).trans ?_
    simp [Cert.Cell.out]
  | ⟨1, hg⟩ =>
    refine (Cert.RefCell.cat_plane1 _ _ _ _ ⟨1, hg⟩ rfl b j).trans ?_
    refine (lead_read _ b j).trans ?_
    refine (congrFun e18 (ix2 b j)).trans ?_
    refine (arrC m c b j).trans ?_
    simp [Cert.Cell.out]
  | ⟨2, hg⟩ =>
    refine (Cert.RefCell.cat_plane2 _ _ _ _ ⟨2, hg⟩ rfl b j).trans ?_
    refine (lead_read _ b j).trans ?_
    refine (congrFun e19 (ix2 b j)).trans ?_
    refine (arrN m c b j).trans ?_
    simp [Cert.Cell.out]
  | ⟨3, hg⟩ =>
    refine (Cert.RefCell.cat_plane3 _ _ _ _ ⟨3, hg⟩ rfl b j).trans ?_
    refine (lead_read _ b j).trans ?_
    refine (congrFun e20 (ix2 b j)).trans ?_
    refine (arrM m c b j).trans ?_
    simp [Cert.Cell.out]

end Cert.KernelIdeal.Blocks

end
-- ==== Proof.lean ====
/-
  The certificate: one step of a stabilised, exponentially gated LSTM cell, computed by a kernel one 128-unit column
  tile at a time, equals the reference's computation through one wide product over the four weight matrices laid
  side by side.

  The three frames: the two kernel programs (the word-level one and its idealization) are four reshapes, one pipelined
  region of sixteen grid points and five stacking operations, and their frame is one theorem written once for any
  float instance (FrameB.lean, FrameI.lean); the reference is a straight line of host operations, whose generated run
  gives its frame with the result dropped. The idealization rewrote nothing, so it is sanctioned trivially.

  The value claim, at the extended reals: the kernel's stacked result (BlocksI.lean: each output array is its sixteen
  column tiles, each tile's entry the cell formula by TileValI.lean, then the stacking operations) and the reference's
  (RefSide.lean: its forty-four operations read at an index) are, entry by entry, the same function Cell.out of the
  seventeen argument arrays (Cell.lean), and the two memories agree on those. The logistic the kernel applies as one
  operation is by definition 1 / (1 + exp (-x)), which is how the reference spells it; the casts to a narrower format
  before the products are the identity on extended reals; the reference's wide sums at column g * 2048 + j are gate
  g's sums at column j. No law that needs finiteness is used, so the precondition is never opened.
-/
import proofs.«128341_j21380347199691_1_alg».proof.Defs
import proofs.«128341_j21380347199691_1_alg».proof.Proof.Gen.Kernel
import proofs.«128341_j21380347199691_1_alg».proof.Proof.Gen.KernelIdeal
import proofs.«128341_j21380347199691_1_alg».proof.Proof.Gen.ReferenceIdeal
import proofs.«128341_j21380347199691_1_alg».proof.Proof.Gen.Pre_finite_inputs
import proofs.«128341_j21380347199691_1_alg».proof.Proof.Gen.ReferenceIdeal.Run
import proofs.«128341_j21380347199691_1_alg».proof.Proof.Gen.ReferenceIdeal.Read
import proofs.«128341_j21380347199691_1_alg».proof.Proof.Cell
import proofs.«128341_j21380347199691_1_alg».proof.Proof.FrameB
import proofs.«128341_j21380347199691_1_alg».proof.Proof.FrameI
import proofs.«128341_j21380347199691_1_alg».proof.Proof.RefSide
import proofs.«128341_j21380347199691_1_alg».proof.Proof.BlocksI
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs to the end and keeps its arguments. -/
theorem frame_k : Cert.frame_Kernel := fun m ρ _ => Cert.Kernel.Fr.frame (F := Bits) m ρ
/-- So does its idealization. -/
theorem frame_ki : Cert.frame_KernelIdeal := fun m ρ _ => Cert.KernelIdeal.Fr.frame (F := Ideal) m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The idealized kernel's stacked result on device `c`: what the stacking operations leave in their last buffer. -/
abbrev kernelResult (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v9) :=
  Pipeline.afterTail₀ Cert.KernelIdeal.cfgs (Cert.KernelIdeal.Fr.dats (F := Ideal) m) 0 (Cert.KernelIdeal.Fr.V0 m) [Cert.KernelIdeal.Gen.hostOps1] c Cert.KernelIdeal.main_v9

set_option maxHeartbeats 4000000 in
/-- The idealized kernel's run: it ends with the stacked result in the last buffer and its arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9) = kernelResult m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)) :=
  (θ_run Cert.KernelIdeal.defs _ _).mono (fun _ h c => ⟨(h c).2 Cert.KernelIdeal.main_v9 (Pipeline.mem_restRefs_of Cert.KernelIdeal.main_v9 (by decide) (by decide)),
    ((h c).1 0).trans (((Cert.KernelIdeal.Fr.dats m 0 c).arrAt_in 0 rfl _).trans ((Cert.KernelIdeal.Fr.A_eq m c 0).trans (Cert.KernelIdeal.Fr.V_kept m c Cert.KernelIdeal.main_arg0 (by decide) (by decide) (by decide) (by decide)))),
    ((h c).1 1).trans (((Cert.KernelIdeal.Fr.dats m 0 c).arrAt_in 1 rfl _).trans ((Cert.KernelIdeal.Fr.A_eq m c 1).trans (Cert.KernelIdeal.Fr.V_kept m c Cert.KernelIdeal.main_arg1 (by decide) (by decide) (by decide) (by decide)))),
    ((h c).1 2).trans (((Cert.KernelIdeal.Fr.dats m 0 c).arrAt_in 2 rfl _).trans ((Cert.KernelIdeal.Fr.A_eq m c 2).trans (Cert.KernelIdeal.Fr.V_kept m c Cert.KernelIdeal.main_arg2 (by decide) (by decide) (by decide) (by decide)))),
    ((h c).1 3).trans (((Cert.KernelIdeal.Fr.dats m 0 c).arrAt_in 3 rfl _).trans ((Cert.KernelIdeal.Fr.A_eq m c 3).trans (Cert.KernelIdeal.Fr.V_kept m c Cert.KernelIdeal.main_arg3 (by decide) (by decide) (by decide) (by decide)))),
    ((h c).1 4).trans (((Cert.KernelIdeal.Fr.dats m 0 c).arrAt_in 4 rfl _).trans ((Cert.KernelIdeal.Fr.A_eq m c 4).trans (Cert.KernelIdeal.Fr.V_kept m c Cert.KernelIdeal.main_arg4 (by decide) (by decide) (by decide) (by decide)))),
    ((h c).1 5).trans (((Cert.KernelIdeal.Fr.dats m 0 c).arrAt_in 5 rfl _).trans ((Cert.KernelIdeal.Fr.A_eq m c 5).trans (Cert.KernelIdeal.Fr.V_kept m c Cert.KernelIdeal.main_arg5 (by decide) (by decide) (by decide) (by decide)))),
    ((h c).1 6).trans (((Cert.KernelIdeal.Fr.dats m 0 c).arrAt_in 6 rfl _).trans ((Cert.KernelIdeal.Fr.A_eq m c 6).trans (Cert.KernelIdeal.Fr.V_kept m c Cert.KernelIdeal.main_arg6 (by decide) (by decide) (by decide) (by decide)))),
    ((h c).1 7).trans (((Cert.KernelIdeal.Fr.dats m 0 c).arrAt_in 7 rfl _).trans ((Cert.KernelIdeal.Fr.A_eq m c 7).trans (Cert.KernelIdeal.Fr.V_kept m c Cert.KernelIdeal.main_arg7 (by decide) (by decide) (by decide) (by decide)))),
    ((h c).1 8).trans (((Cert.KernelIdeal.Fr.dats m 0 c).arrAt_in 8 rfl _).trans ((Cert.KernelIdeal.Fr.A_eq m c 8).trans (Cert.KernelIdeal.Fr.V_kept m c Cert.KernelIdeal.main_arg8 (by decide) (by decide) (by decide) (by decide)))),
    ((h c).2 Cert.KernelIdeal.main_arg9 (Pipeline.mem_restRefs_of Cert.KernelIdeal.main_arg9 (by decide) (by decide))).trans (Cert.KernelIdeal.Fr.W_kept m (Cert.KernelIdeal.Fr.dats m) c Cert.KernelIdeal.main_arg9 (by decide) (by decide) (by decide) (by decide) (by decide) (by decide) (by decide) (by decide) (by decide) (by decide)),
    ((h c).2 Cert.KernelIdeal.main_arg10 (Pipeline.mem_restRefs_of Cert.KernelIdeal.main_arg10 (by decide) (by decide))).trans (Cert.KernelIdeal.Fr.W_kept m (Cert.KernelIdeal.Fr.dats m) c Cert.KernelIdeal.main_arg10 (by decide) (by decide) (by decide) (by decide) (by decide) (by decide) (by decide) (by decide) (by decide) (by decide)),
    ((h c).2 Cert.KernelIdeal.main_arg11 (Pipeline.mem_restRefs_of Cert.KernelIdeal.main_arg11 (by decide) (by decide))).trans (Cert.KernelIdeal.Fr.W_kept m (Cert.KernelIdeal.Fr.dats m) c Cert.KernelIdeal.main_arg11 (by decide) (by decide) (by decide) (by decide) (by decide) (by decide) (by decide) (by decide) (by decide) (by decide)),
    ((h c).2 Cert.KernelIdeal.main_arg12 (Pipeline.mem_restRefs_of Cert.KernelIdeal.main_arg12 (by decide) (by decide))).trans (Cert.KernelIdeal.Fr.W_kept m (Cert.KernelIdeal.Fr.dats m) c Cert.KernelIdeal.main_arg12 (by decide) (by decide) (by decide) (by decide) (by decide) (by decide) (by decide) (by decide) (by decide) (by decide)),
    ((h c).1 13).trans (((Cert.KernelIdeal.Fr.dats m 0 c).arrAt_in 13 rfl _).trans ((Cert.KernelIdeal.Fr.A_eq m c 13).trans (Cert.KernelIdeal.Fr.V_kept m c Cert.KernelIdeal.main_arg13 (by decide) (by decide) (by decide) (by decide)))),
    ((h c).1 14).trans (((Cert.KernelIdeal.Fr.dats m 0 c).arrAt_in 14 rfl _).trans ((Cert.KernelIdeal.Fr.A_eq m c 14).trans (Cert.KernelIdeal.Fr.V_kept m c Cert.KernelIdeal.main_arg14 (by decide) (by decide) (by decide) (by decide)))),
    ((h c).1 15).trans (((Cert.KernelIdeal.Fr.dats m 0 c).arrAt_in 15 rfl _).trans ((Cert.KernelIdeal.Fr.A_eq m c 15).trans (Cert.KernelIdeal.Fr.V_kept m c Cert.KernelIdeal.main_arg15 (by decide) (by decide) (by decide) (by decide)))),
    ((h c).1 16).trans (((Cert.KernelIdeal.Fr.dats m 0 c).arrAt_in 16 rfl _).trans ((Cert.KernelIdeal.Fr.A_eq m c 16).trans (Cert.KernelIdeal.Fr.V_kept m c Cert.KernelIdeal.main_arg16 (by decide) (by decide) (by decide) (by decide))))⟩) (Cert.KernelIdeal.Fr.run_main (F := Ideal) m ρ)

/-- From memories that agree on the seventeen arguments, both programs end with the same stacked result: entry by
    entry it is the cell's formula of the arguments on either side. -/
theorem algebraic : Cert.algebraic_KernelIdeal_ReferenceIdeal := by
  intro m ρ m' ρ' _ hagree
  refine ⟨fun c => kernelResult m c, kernel_run m ρ, ?_⟩
  refine (θ_run Cert.ReferenceIdeal.defs _ _).mono (fun _ h c => ⟨(h c).1.trans ?_, (h c).2⟩)
    (Cert.ReferenceIdeal.Value.run (F := Ideal) m' ρ')
  show (Cert.ReferenceIdeal.Value.res_out0 (F := Ideal) m' c : Cert.ReferenceIdeal.S4x256x2048.Idx → EReal)
    = (kernelResult m c : Cert.KernelIdeal.S4x256x2048.Idx → EReal)
  funext i
  obtain ⟨g, b, j, rfl⟩ : ∃ (g : Fin 4) (b : Fin 256) (j : Fin 2048), i = ix3 g b j := ⟨i 0, i 1, i 2, eq_ix3 i⟩
  rw [Cert.RefCell.ref_out m' c g b j]
  refine Eq.trans ?_ (Cert.KernelIdeal.Blocks.kernel_out m c g b j).symm
  obtain ⟨h0, h1, h2, h3, h4, h5, h6, h7, h8, h9, h10, h11, h12, h13, h14, h15, h16⟩ := hagree c
  simp only [Cert.RefCell.args, Cert.KernelIdeal.Blocks.args, h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
